-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65_1)) (v1 : (c : Dev Cert.KernelIdeal.nD) → Buf (Elt Ideal) ((c.tc : Thread Cert.KernelIdeal.nD Cert.KernelIdeal.τ).loc Cert.KernelIdeal.main_v84)) (v2 : (c : Dev Cert.KernelIdeal.nD) → Buf (Elt Ideal) ((c.tc : Thread Cert.KernelIdeal.nD Cert.KernelIdeal.τ).loc Cert.KernelIdeal.main_v65_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_1) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_v65_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S64x128 .f32) (main_arg9 : FVec F S128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x128 .f32) (main_arg9 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3301376 : Shape := ⟨1, ![3301376]⟩
abbrev S100000x64 : Shape := ⟨2, ![100000, 64]⟩
abbrev S10000x128 : Shape := ⟨2, ![10000, 128]⟩
abbrev S10000x64 : Shape := ⟨2, ![10000, 64]⟩
abbrev S3301376x1 : Shape := ⟨2, ![3301376, 1]⟩
abbrev S3301376x64 : Shape := ⟨2, ![3301376, 64]⟩
abbrev S1x64 : Shape := ⟨2, ![1, 64]⟩
abbrev S1x128 : Shape := ⟨2, ![1, 128]⟩
abbrev S3203072 : Shape := ⟨1, ![3203072]⟩
abbrev S3203072x1 : Shape := ⟨2, ![3203072, 1]⟩
abbrev S3203072x64 : Shape := ⟨2, ![3203072, 64]⟩

abbrev nBuf : Space → Nat
  | .hbm => 127
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S100000, .i32⟩
  | .hbm, ⟨15, _⟩ => ⟨S3300000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S_, .i32⟩
  | .hbm, ⟨51, _⟩ => ⟨S_, .i32⟩
  | .hbm, ⟨52, _⟩ => ⟨S3301376, .i32⟩
  | .hbm, ⟨53, _⟩ => ⟨S_, .i32⟩
  | .hbm, ⟨54, _⟩ => ⟨S_, .i32⟩
  | .hbm, ⟨55, _⟩ => ⟨S3301376, .i32⟩
  | .hbm, ⟨56, _⟩ => ⟨S_, .f32⟩
  | .hbm, ⟨57, _⟩ => ⟨S_, .f32⟩
  | .hbm, ⟨58, _⟩ => ⟨S3301376, .f32⟩
  | .hbm, ⟨59, _⟩ => ⟨S100000x64, .f32⟩
  | .hbm, ⟨60, _⟩ => ⟨S_, .i32⟩
  | .hbm, ⟨61, _⟩ => ⟨S3301376, .i32⟩
  | .hbm, ⟨62, _⟩ => ⟨S3301376, .i1⟩
  | .hbm, ⟨63, _⟩ => ⟨S_, .i32⟩
  | .hbm, ⟨64, _⟩ => ⟨S3301376, .i32⟩
  | .hbm, ⟨65, _⟩ => ⟨S3301376, .i32⟩
  | .hbm, ⟨66, _⟩ => ⟨S3301376, .i32⟩
  | .hbm, ⟨67, _⟩ => ⟨S3301376x1, .i32⟩
  | .hbm, ⟨68, _⟩ => ⟨S3301376x64, .f32⟩
  | .hbm, ⟨69, _⟩ => ⟨S3301376x1, .f32⟩
  | .hbm, ⟨70, _⟩ => ⟨S3301376x64, .f32⟩
  | .hbm, ⟨71, _⟩ => ⟨S3301376x64, .f32⟩
  | .hbm, ⟨72, _⟩ => ⟨S_, .f32⟩
  | .hbm, ⟨73, _⟩ => ⟨S100000x64, .f32⟩
  | .hbm, ⟨74, _⟩ => ⟨S3301376x1, .i32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S_, .i32⟩
  | .hbm, ⟨79, _⟩ => ⟨S3301376, .i32⟩
  | .hbm, ⟨80, _⟩ => ⟨S3301376, .i1⟩
  | .hbm, ⟨81, _⟩ => ⟨S_, .i32⟩
  | .hbm, ⟨82, _⟩ => ⟨S3301376, .i32⟩
  | .hbm, ⟨83, _⟩ => ⟨S3301376, .i32⟩
  | .hbm, ⟨84, _⟩ => ⟨S3301376, .i32⟩
  | .hbm, ⟨85, _⟩ => ⟨S3301376x1, .i32⟩
  | .hbm, ⟨86, _⟩ => ⟨S3301376x64, .f32⟩
  | .hbm, ⟨87, _⟩ => ⟨S3301376x1, .f32⟩
  | .hbm, ⟨88, _⟩ => ⟨S3301376x64, .f32⟩
  | .hbm, ⟨89, _⟩ => ⟨S3301376x64, .f32⟩
  | .hbm, ⟨90, _⟩ => ⟨S_, .f32⟩
  | .hbm, ⟨91, _⟩ => ⟨S100000x64, .f32⟩
  | .hbm, ⟨92, _⟩ => ⟨S3301376x1, .i32⟩
  | .hbm, ⟨93, _⟩ => ⟨S100000x64, .f32⟩
  | .hbm, ⟨94, _⟩ => ⟨S1x64, .f32⟩
  | .hbm, ⟨95, _⟩ => ⟨S1x64, .f32⟩
  | .hbm, ⟨96, _⟩ => ⟨S1x128, .f32⟩
  | .hbm, ⟨97, _⟩ => ⟨S100000x64, .f32⟩
  | .hbm, ⟨98, _⟩ => ⟨S100000x128, .f32⟩
  | .hbm, ⟨99, _⟩ => ⟨S_, .i32⟩
  | .hbm, ⟨100, _⟩ => ⟨S_, .i32⟩
  | .hbm, ⟨101, _⟩ => ⟨S3203072, .i32⟩
  | .hbm, ⟨102, _⟩ => ⟨S_, .i32⟩
  | .hbm, ⟨103, _⟩ => ⟨S_, .i32⟩
  | .hbm, ⟨104, _⟩ => ⟨S3203072, .i32⟩
  | .hbm, ⟨105, _⟩ => ⟨S_, .i32⟩
  | .hbm, ⟨106, _⟩ => ⟨S3203072, .i32⟩
  | .hbm, ⟨107, _⟩ => ⟨S3203072, .i1⟩
  | .hbm, ⟨108, _⟩ => ⟨S_, .i32⟩
  | .hbm, ⟨109, _⟩ => ⟨S3203072, .i32⟩
  | .hbm, ⟨110, _⟩ => ⟨S3203072, .i32⟩
  | .hbm, ⟨111, _⟩ => ⟨S3203072, .i32⟩
  | .hbm, ⟨112, _⟩ => ⟨S3203072x1, .i32⟩
  | .hbm, ⟨113, _⟩ => ⟨S3203072x64, .f32⟩
  | .hbm, ⟨114, _⟩ => ⟨S_, .i32⟩
  | .hbm, ⟨115, _⟩ => ⟨S3203072, .i32⟩
  | .hbm, ⟨116, _⟩ => ⟨S3203072, .i1⟩
  | .hbm, ⟨117, _⟩ => ⟨S_, .i32⟩
  | .hbm, ⟨118, _⟩ => ⟨S3203072, .i32⟩
  | .hbm, ⟨119, _⟩ => ⟨S3203072, .i32⟩
  | .hbm, ⟨120, _⟩ => ⟨S3203072, .i32⟩
  | .hbm, ⟨121, _⟩ => ⟨S3203072x1, .i32⟩
  | .hbm, ⟨122, _⟩ => ⟨S3203072x64, .f32⟩
  | .hbm, ⟨123, _⟩ => ⟨S3203072x64, .f32⟩
  | .hbm, ⟨124, _⟩ => ⟨S_, .f32⟩
  | .hbm, ⟨125, _⟩ => ⟨S3203072, .f32⟩
  | .hbm, ⟨126, _⟩ => ⟨S3200000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x128, .f32⟩
  | .local _ .vmem, ⟨17, _⟩ => ⟨S1x128, .f32⟩
  | .local _ .vmem, ⟨18, _⟩ => ⟨S10000x64, .f32⟩
  | .local _ .vmem, ⟨19, _⟩ => ⟨S10000x64, .f32⟩
  | .local _ .vmem, ⟨20, _⟩ => ⟨S10000x128, .f32⟩
  | .local _ .vmem, ⟨21, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_call1_v0 : Ref sig .tc := ⟨.hbm, 51, rfl⟩
abbrev main_v30 : Ref sig .tc := ⟨.hbm, 52, rfl⟩
abbrev main_c_7 : Ref sig .tc := ⟨.hbm, 53, rfl⟩
abbrev main_call2_v0 : Ref sig .tc := ⟨.hbm, 54, rfl⟩
abbrev main_v31 : Ref sig .tc := ⟨.hbm, 55, rfl⟩
abbrev main_cst_8 : Ref sig .tc := ⟨.hbm, 56, rfl⟩
abbrev main_call3_v0 : Ref sig .tc := ⟨.hbm, 57, rfl⟩
abbrev main_v32 : Ref sig .tc := ⟨.hbm, 58, rfl⟩
abbrev main_v33 : Ref sig .tc := ⟨.hbm, 59, rfl⟩
abbrev main_c_9 : Ref sig .tc := ⟨.hbm, 60, rfl⟩
abbrev main_v34 : Ref sig .tc := ⟨.hbm, 61, rfl⟩
abbrev main_v35 : Ref sig .tc := ⟨.hbm, 62, rfl⟩
abbrev main_c_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_11 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_c_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65_0 : Ref sig .tc := ⟨.hbm, 97, rfl⟩
abbrev main_v65_1 : Ref sig .tc := ⟨.hbm, 98, rfl⟩
abbrev main_c_15 : Ref sig .tc := ⟨.hbm, 99, rfl⟩
abbrev main_call4_v0 : Ref sig .tc := ⟨.hbm, 100, rfl⟩
abbrev main_v66 : Ref sig .tc := ⟨.hbm, 101, rfl⟩
abbrev main_c_16 : Ref sig .tc := ⟨.hbm, 102, rfl⟩
abbrev main_call5_v0 : Ref sig .tc := ⟨.hbm, 103, rfl⟩
abbrev main_v67 : Ref sig .tc := ⟨.hbm, 104, rfl⟩
abbrev main_c_17 : Ref sig .tc := ⟨.hbm, 105, rfl⟩
abbrev main_v68 : Ref sig .tc := ⟨.hbm, 106, rfl⟩
abbrev main_v69 : Ref sig .tc := ⟨.hbm, 107, rfl⟩
abbrev main_c_18 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_19 : Ref sig .tc := ⟨.hbm, 114, rfl⟩
abbrev main_v75 : Ref sig .tc := ⟨.hbm, 115, rfl⟩
abbrev main_v76 : Ref sig .tc := ⟨.hbm, 116, rfl⟩
abbrev main_c_20 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_21 : Ref sig .tc := ⟨.hbm, 124, rfl⟩
abbrev main_v83 : Ref sig .tc := ⟨.hbm, 125, rfl⟩
abbrev main_v84 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc2_stg7_0 : Ref sig .tc := ⟨.vmem, 20, rfl⟩
abbrev cc2_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc2_sem7_0 : DmaSem sig := 20
abbrev cc2_sem7_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  pads_S3300000_S3301376_013760 : S3300000.Pads (![0] : Fin 1 → Nat) ![1376] ![0] S3301376
  h_S_ : 0 < S_.numel
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S3301376 : S_.BroadcastsInDim S3301376 (![] : Fin 0 → Fin S3301376.rank)
  bcast_S3301376_S3301376x1_0 : S3301376.BroadcastsInDim S3301376x1 (![0] : Fin 1 → Fin S3301376x1.rank)
  bcast_S3301376x1_S3301376x64_0_1 : S3301376x1.BroadcastsInDim S3301376x64 (![0, 1] : Fin 2 → Fin S3301376x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  pads_S3200000_S3203072_030720 : S3200000.Pads (![0] : Fin 1 → Nat) ![3072] ![0] S3203072
  bcast_S_S3203072 : S_.BroadcastsInDim S3203072 (![] : Fin 0 → Fin S3203072.rank)
  bcast_S3203072_S3203072x1_0 : S3203072.BroadcastsInDim S3203072x1 (![0] : Fin 1 → Fin S3203072x1.rank)
  reducesTo_S3203072x64_S3203072_d1 : S3203072x64.ReducesTo [1] S3203072
  slices_S3203072_S3200000_0 : S3203072.Slices ![0] S3200000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3301376x1_S3301376x64_1_0_n_n_0_1_164_wf : GatherDims.WF S100000x64 S3301376x1 S3301376x64 [1] [0] [] [0] [] 1 ![1, 64]
  scatter_S100000x64_S3301376x1_S3301376x64_1_0_0_1_wf : ScatterDims.WF S100000x64 S3301376x1 S3301376x64 [1] [0] [0] 1
  dot_S10000x64_S64x64_S10000x64_1_0_0_1_n_n_wf : DotDims.WF S10000x64 S64x64 S10000x64 [1] [0] [0] [1] [] []
  dot_S10000x64_S64x128_S10000x128_1_0_0_1_n_n_wf : DotDims.WF S10000x64 S64x128 S10000x128 [1] [0] [0] [1] [] []
  gather_S100000x64_S3203072x1_S3203072x64_1_0_n_n_0_1_164_wf : GatherDims.WF S100000x64 S3203072x1 S3203072x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S100000x128.size a
  hwx2_7 : ∀ i : grid2.Coords, EltTy.bits .f32 = 32 ∨ (Rect.block (s := S100000x128) S10000x128.size (cc2_transform_7 i) (hinb2_7 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3301376x1_S3301376x64_1_0_n_n_0_1_164 : GatherDims S100000x64 S3301376x1 S3301376x64 where
  offsetDims := [1]
  collapsedSliceDims := [0]
  operandBatchingDims := []
  startIndicesBatchingDims := []
  startIndexMap := [0]
  indexVectorDim := 1
  sliceSizes := ![1, 64]
  wf := gather_S100000x64_S3301376x1_S3301376x64_1_0_n_n_0_1_164_wf
def scatter_S100000x64_S3301376x1_S3301376x64_1_0_0_1 : ScatterDims S100000x64 S3301376x1 S3301376x64 where
  updateWindowDims := [1]
  insertedWindowDims := [0]
  scatterDimsToOperandDims := [0]
  indexVectorDim := 1
  wf := scatter_S100000x64_S3301376x1_S3301376x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x64_S3203072x1_S3203072x64_1_0_n_n_0_1_164 : GatherDims S100000x64 S3203072x1 S3203072x64 where
  offsetDims := [1]
  collapsedSliceDims := [0]
  operandBatchingDims := []
  startIndicesBatchingDims := []
  startIndexMap := [0]
  indexVectorDim := 1
  sliceSizes := ![1, 64]
  wf := gather_S100000x64_S3203072x1_S3203072x64_1_0_n_n_0_1_164_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65_0) S10000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v65_1) S10000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x3200000 : Shape := ⟨2, ![1, 3200000]⟩
abbrev S3200000 : Shape := ⟨1, ![3200000]⟩
abbrev S100000x64 : Shape := ⟨2, ![100000, 64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S1x128 : Shape := ⟨2, ![1, 128]⟩
abbrev S3200000x1 : Shape := ⟨2, ![3200000, 1]⟩
abbrev S3200000x64 : Shape := ⟨2, ![3200000, 64]⟩

abbrev nBuf : Space → Nat
  | .hbm => 164
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x128, .f32⟩
  | 9 => ⟨S128, .f32⟩
  | 10 => ⟨S1x3200000, .i32⟩
  | 11 => ⟨S3200000, .i32⟩
  | 12 => ⟨S1x3200000, .i32⟩
  | 13 => ⟨S3200000, .i32⟩
  | 14 => ⟨S100000x64, .f32⟩
  | 15 => ⟨S100000, .i32⟩
  | 16 => ⟨S3300000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x64, .f32⟩
  | 60 => ⟨S3300000x1, .f32⟩
  | 61 => ⟨S3300000x64, .f32⟩
  | 62 => ⟨S3300000x64, .f32⟩
  | 63 => ⟨S_, .f32⟩
  | 64 => ⟨S100000x64, .f32⟩
  | 65 => ⟨S3300000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S100000, .i32⟩
  | 75 => ⟨S3300000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x64, .f32⟩
  | 119 => ⟨S3300000x1, .f32⟩
  | 120 => ⟨S3300000x64, .f32⟩
  | 121 => ⟨S3300000x64, .f32⟩
  | 122 => ⟨S_, .f32⟩
  | 123 => ⟨S100000x64, .f32⟩
  | 124 => ⟨S3300000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S100000x128, .f32⟩
  | 12 => ⟨S1x128, .f32⟩
  | 13 => ⟨S100000x128, .f32⟩
  | 14 => ⟨S100000x128, .f32⟩
  | 15 => ⟨S_, .i32⟩
  | 16 => ⟨S3200000, .i32⟩
  | 17 => ⟨S3200000, .i1⟩
  | 18 => ⟨S_, .i32⟩
  | 19 => ⟨S3200000, .i32⟩
  | 20 => ⟨S3200000, .i32⟩
  | 21 => ⟨S3200000, .i32⟩
  | 22 => ⟨S3200000x1, .i32⟩
  | 23 => ⟨S3200000x64, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x64, .f32⟩
  | 33 => ⟨S3200000x64, .f32⟩
  | 34 => ⟨S_, .f32⟩
  | 35 => ⟨S3200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call3_cst : Ref sig .tc := ⟨.hbm, 129, rfl⟩
abbrev main_call3_v0 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_call4_cst : Ref sig .tc := ⟨.hbm, 136, rfl⟩
abbrev main_call4_v0 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_c_20 : Ref sig .tc := ⟨.hbm, 143, rfl⟩
abbrev main_v101 : Ref sig .tc := ⟨.hbm, 144, rfl⟩
abbrev main_v102 : Ref sig .tc := ⟨.hbm, 145, rfl⟩
abbrev main_c_21 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_c_22 : Ref sig .tc := ⟨.hbm, 152, rfl⟩
abbrev main_v108 : Ref sig .tc := ⟨.hbm, 153, rfl⟩
abbrev main_v109 : Ref sig .tc := ⟨.hbm, 154, rfl⟩
abbrev main_c_23 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_24 : Ref sig .tc := ⟨.hbm, 162, rfl⟩
abbrev main_v116 : Ref sig .tc := ⟨.hbm, 163, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x64_S3200000_d1 : S3200000x64.ReducesTo [1] S3200000
  h_S_ : 0 < S_.numel
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []
  gather_S100000x64_S3200000x1_S3200000x64_1_0_n_n_0_1_164_wf : GatherDims.WF S100000x64 S3200000x1 S3200000x64 [1] [0] [] [0] [] 1 ![1, 64]

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf

class Facts : Prop extends Facts₀ where

variable [Facts]
-- ==== Proof.KPass.lean ====
/- Buffers that the kernel program's host stretches and regions carry unchanged, read through the generated fold of
   boundary contents (W0 … W18 of Gen/KernelIdeal/Frame.lean): an argument is never written; the edge endpoints and the
   padded edge lists are written once, before the first region, and only read afterwards; a region's outputs are not
   written by the host operations after it. -/
import proofs.«403851_j43834436223264_4_alg».proof.Proof.Gen.KernelIdeal.Frame

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## The arguments, at the boundaries where a later stage reads them -/

theorem W8_arg0 (c : Dev nD) : W8 m ρ c (Proc.devRef .tc main_arg0) = (m ((c.tc : Thread nD τ).loc main_arg0)) := by
  after_results_simp

theorem W8_arg2 (c : Dev nD) : W8 m ρ c (Proc.devRef .tc main_arg2) = (m ((c.tc : Thread nD τ).loc main_arg2)) := by
  after_results_simp

theorem W8_arg3 (c : Dev nD) : W8 m ρ c (Proc.devRef .tc main_arg3) = (m ((c.tc : Thread nD τ).loc main_arg3)) := by
  after_results_simp

theorem W8_arg4 (c : Dev nD) : W8 m ρ c (Proc.devRef .tc main_arg4) = (m ((c.tc : Thread nD τ).loc main_arg4)) := by
  after_results_simp

theorem W8_arg5 (c : Dev nD) : W8 m ρ c (Proc.devRef .tc main_arg5) = (m ((c.tc : Thread nD τ).loc main_arg5)) := by
  after_results_simp

theorem W8_arg6 (c : Dev nD) : W8 m ρ c (Proc.devRef .tc main_arg6) = (m ((c.tc : Thread nD τ).loc main_arg6)) := by
  after_results_simp

theorem W8_arg7 (c : Dev nD) : W8 m ρ c (Proc.devRef .tc main_arg7) = (m ((c.tc : Thread nD τ).loc main_arg7)) := by
  after_results_simp

theorem W8_arg8 (c : Dev nD) : W8 m ρ c (Proc.devRef .tc main_arg8) = (m ((c.tc : Thread nD τ).loc main_arg8)) := by
  after_results_simp

theorem W8_arg9 (c : Dev nD) : W8 m ρ c (Proc.devRef .tc main_arg9) = (m ((c.tc : Thread nD τ).loc main_arg9)) := by
  after_results_simp

theorem W9_arg3 (c : Dev nD) : W9 m ρ c (Proc.devRef .tc main_arg3) = (m ((c.tc : Thread nD τ).loc main_arg3)) := by
  exact (W9_of_ne m ρ c main_arg3 (by decide)).trans
    (W8_arg3 m ρ c)

theorem W10_arg4 (c : Dev nD) : W10 m ρ c (Proc.devRef .tc main_arg4) = (m ((c.tc : Thread nD τ).loc main_arg4)) := by
  exact (((by after_results_simp : W10 m ρ c (Proc.devRef .tc main_arg4) = W9 m ρ c (Proc.devRef .tc main_arg4))).trans
    (W9_of_ne m ρ c main_arg4 (by decide))).trans
    (W8_arg4 m ρ c)

theorem W11_arg5 (c : Dev nD) : W11 m ρ c (Proc.devRef .tc main_arg5) = (m ((c.tc : Thread nD τ).loc main_arg5)) := by
  exact ((W11_of_ne m ρ c main_arg5 (by decide)).trans
    (((by after_results_simp : W10 m ρ c (Proc.devRef .tc main_arg5) = W9 m ρ c (Proc.devRef .tc main_arg5))).trans
    (W9_of_ne m ρ c main_arg5 (by decide)))).trans
    (W8_arg5 m ρ c)

theorem W11_arg7 (c : Dev nD) : W11 m ρ c (Proc.devRef .tc main_arg7) = (m ((c.tc : Thread nD τ).loc main_arg7)) := by
  exact ((W11_of_ne m ρ c main_arg7 (by decide)).trans
    (((by after_results_simp : W10 m ρ c (Proc.devRef .tc main_arg7) = W9 m ρ c (Proc.devRef .tc main_arg7))).trans
    (W9_of_ne m ρ c main_arg7 (by decide)))).trans
    (W8_arg7 m ρ c)

theorem W11_arg9 (c : Dev nD) : W11 m ρ c (Proc.devRef .tc main_arg9) = (m ((c.tc : Thread nD τ).loc main_arg9)) := by
  exact ((W11_of_ne m ρ c main_arg9 (by decide)).trans
    (((by after_results_simp : W10 m ρ c (Proc.devRef .tc main_arg9) = W9 m ρ c (Proc.devRef .tc main_arg9))).trans
    (W9_of_ne m ρ c main_arg9 (by decide)))).trans
    (W8_arg9 m ρ c)

theorem W12_arg6 (c : Dev nD) : W12 m ρ c (Proc.devRef .tc main_arg6) = (m ((c.tc : Thread nD τ).loc main_arg6)) := by
  exact (((by after_results_simp : W12 m ρ c (Proc.devRef .tc main_arg6) = W11 m ρ c (Proc.devRef .tc main_arg6))).trans
    ((W11_of_ne m ρ c main_arg6 (by decide)).trans
    (((by after_results_simp : W10 m ρ c (Proc.devRef .tc main_arg6) = W9 m ρ c (Proc.devRef .tc main_arg6))).trans
    (W9_of_ne m ρ c main_arg6 (by decide))))).trans
    (W8_arg6 m ρ c)

theorem W12_arg8 (c : Dev nD) : W12 m ρ c (Proc.devRef .tc main_arg8) = (m ((c.tc : Thread nD τ).loc main_arg8)) := by
  exact (((by after_results_simp : W12 m ρ c (Proc.devRef .tc main_arg8) = W11 m ρ c (Proc.devRef .tc main_arg8))).trans
    ((W11_of_ne m ρ c main_arg8 (by decide)).trans
    (((by after_results_simp : W10 m ρ c (Proc.devRef .tc main_arg8) = W9 m ρ c (Proc.devRef .tc main_arg8))).trans
    (W9_of_ne m ρ c main_arg8 (by decide))))).trans
    (W8_arg8 m ρ c)

/-! ## The padded edge lists (written before region 0), as region 1's exit finds them -/

theorem W11_v30 (c : Dev nD) : W11 m ρ c (Proc.devRef .tc main_v30) = W8 m ρ c (Proc.devRef .tc main_v30) := by
  exact (W11_of_ne m ρ c main_v30 (by decide)).trans
    (((by after_results_simp : W10 m ρ c (Proc.devRef .tc main_v30) = W9 m ρ c (Proc.devRef .tc main_v30))).trans
    (W9_of_ne m ρ c main_v30 (by decide)))

theorem W11_v31 (c : Dev nD) : W11 m ρ c (Proc.devRef .tc main_v31) = W8 m ρ c (Proc.devRef .tc main_v31) := by
  exact (W11_of_ne m ρ c main_v31 (by decide)).trans
    (((by after_results_simp : W10 m ρ c (Proc.devRef .tc main_v31) = W9 m ρ c (Proc.devRef .tc main_v31))).trans
    (W9_of_ne m ρ c main_v31 (by decide)))

theorem W11_v32 (c : Dev nD) : W11 m ρ c (Proc.devRef .tc main_v32) = W8 m ρ c (Proc.devRef .tc main_v32) := by
  exact (W11_of_ne m ρ c main_v32 (by decide)).trans
    (((by after_results_simp : W10 m ρ c (Proc.devRef .tc main_v32) = W9 m ρ c (Proc.devRef .tc main_v32))).trans
    (W9_of_ne m ρ c main_v32 (by decide)))

/-! ## The edge endpoints (written by the first host stretch), as region 2's exit finds them -/

theorem W13_v1 (c : Dev nD) : W13 m ρ c (Proc.devRef .tc main_v1) = W8 m ρ c (Proc.devRef .tc main_v1) := by
  exact (W13_of_ne m ρ c main_v1 (by decide)).trans
    (((by after_results_simp : W12 m ρ c (Proc.devRef .tc main_v1) = W11 m ρ c (Proc.devRef .tc main_v1))).trans
    ((W11_of_ne m ρ c main_v1 (by decide)).trans
    (((by after_results_simp : W10 m ρ c (Proc.devRef .tc main_v1) = W9 m ρ c (Proc.devRef .tc main_v1))).trans
    (W9_of_ne m ρ c main_v1 (by decide)))))

theorem W13_v3 (c : Dev nD) : W13 m ρ c (Proc.devRef .tc main_v3) = W8 m ρ c (Proc.devRef .tc main_v3) := by
  exact (W13_of_ne m ρ c main_v3 (by decide)).trans
    (((by after_results_simp : W12 m ρ c (Proc.devRef .tc main_v3) = W11 m ρ c (Proc.devRef .tc main_v3))).trans
    ((W11_of_ne m ρ c main_v3 (by decide)).trans
    (((by after_results_simp : W10 m ρ c (Proc.devRef .tc main_v3) = W9 m ρ c (Proc.devRef .tc main_v3))).trans
    (W9_of_ne m ρ c main_v3 (by decide)))))

/-! ## Region 2's outputs are not written after it -/

theorem W18_v65_0 (c : Dev nD) : W18 m ρ c (Proc.devRef .tc main_v65_0) = W13 m ρ c (Proc.devRef .tc main_v65_0) := by
  after_results_simp

theorem W18_v65_1 (c : Dev nD) : W18 m ρ c (Proc.devRef .tc main_v65_1) = W13 m ρ c (Proc.devRef .tc main_v65_1) := by
  after_results_simp

end Cert.KernelIdeal.Chain

end
-- ==== Proof.Region0.lean ====
import proofs.«403851_j43834436223264_4_alg».proof.Proof.Gen.KernelIdeal.Frame
import proofs.«403851_j43834436223264_4_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem
open Cert.KernelIdeal Cert.KernelIdeal.Gen
open Idealize.ShloMosaic.Pipeline (Dat Cfg Window)

/-! ## The product of one block of rows with the weights, entry by entry

The body multiplies a block of 10000 rows of x by the whole of W1 into a zero accumulator; the host multiplies all
100000 rows at once. Each is, at an output entry (row, column), the sum over the 128 contracted positions k of
x(row, k) · W1(k, column). The two contraction records differ only in the number of rows. -/

/-- Zero offsets, in the two ways they are spelt. -/
theorem zero_offsets : (![0, 0] : Fin 2 → Nat) = fun _ => 0 := funext fun a => by fin_cases a <;> rfl

/-- Left operand of the block product, axis 0: the output's row. -/
theorem lhs_block_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- Left operand of the block product, axis 1: the contracted position. -/
theorem lhs_block_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- Right operand of the block product, axis 0: the contracted position. -/
theorem rhs_block_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- Right operand of the block product, axis 1: the output's column. -/
theorem rhs_block_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (row of the block, k) of a block of x. -/
abbrev xAtBlock (i : S10000x64.Idx) (k : Fin 128) : S10000x128.Idx := fun a => match a with
  | ⟨0, _⟩ => ⟨(i 0).val, (i 0).isLt⟩
  | ⟨1, _⟩ => ⟨k.val, k.isLt⟩
/-- Entry (k, column) of W1, for an output entry of the block. -/
abbrev wAtBlock (i : S10000x64.Idx) (k : Fin 128) : S128x64.Idx := fun a => match a with
  | ⟨0, _⟩ => ⟨k.val, k.isLt⟩
  | ⟨1, _⟩ => ⟨(i 1).val, (i 1).isLt⟩

/-- The body's product at an entry of the block: the sum over the contracted axis. -/
theorem block_product_apply (x : Vec Ideal S10000x128 .f32) (w : Vec Ideal S128x64 .f32) (i : S10000x64.Idx) :
    k0_pay1 (F := Ideal) x w i = ∑ k : Fin 128, x (xAtBlock i k) * w (wAtBlock i k) := by
  unfold k0_pay1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx i ((ValueIdx.contrEquiv1 dot_S10000x128_S128x64_S10000x64_1_0_0_1_n_n 128 rfl rfl).symm k) = xAtBlock i k := funext fun a => Fin.ext (by
    match a with
    | ⟨0, _⟩ => exact lhs_block_0 _ _
    | ⟨1, _⟩ => exact (lhs_block_1 _ _).trans hk)
  have er : dot_S10000x128_S128x64_S10000x64_1_0_0_1_n_n.rhsIdx i ((ValueIdx.contrEquiv1 dot_S10000x128_S128x64_S10000x64_1_0_0_1_n_n 128 rfl rfl).symm k) = wAtBlock i k := funext fun a => Fin.ext (by
    match a with
    | ⟨0, _⟩ => exact (rhs_block_0 _ _).trans hk
    | ⟨1, _⟩ => exact rhs_block_1 _ _)
  rw [el, er]

/-- Left operand of the whole product, axis 0: the output's row. -/
theorem lhs_whole_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
/-- Left operand of the whole product, axis 1: the contracted position. -/
theorem lhs_whole_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
/-- Right operand of the whole product, axis 0: the contracted position. -/
theorem rhs_whole_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
/-- Right operand of the whole product, axis 1: the output's column. -/
theorem rhs_whole_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- Entry (row, k) of the whole of x. -/
abbrev xAtRow (i : Cert.ReferenceIdeal.S100000x64.Idx) (k : Fin 128) : Cert.ReferenceIdeal.S100000x128.Idx := fun a => match a with
  | ⟨0, _⟩ => ⟨(i 0).val, (i 0).isLt⟩
  | ⟨1, _⟩ => ⟨k.val, k.isLt⟩
/-- Entry (k, column) of W1, for an output entry of the whole array. -/
abbrev wAtRow (i : Cert.ReferenceIdeal.S100000x64.Idx) (k : Fin 128) : Cert.ReferenceIdeal.S128x64.Idx := fun a => match a with
  | ⟨0, _⟩ => ⟨k.val, k.isLt⟩
  | ⟨1, _⟩ => ⟨(i 1).val, (i 1).isLt⟩

/-- The host's product at an entry of the whole array: the same sum over the contracted axis. -/
theorem whole_product_apply (x : FVec Ideal Cert.ReferenceIdeal.S100000x128 .f32) (w : FVec Ideal Cert.ReferenceIdeal.S128x64 .f32) (i : Cert.ReferenceIdeal.S100000x64.Idx) :
    Host.dotGeneral (F := Ideal) Cert.ReferenceIdeal.dot_S100000x128_S128x64_S100000x64_1_0_0_1_n_n none x w i
      = ∑ k : Fin 128, x (xAtRow i k) * w (wAtRow i k) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = xAtRow i k := funext fun a => Fin.ext (by
    match a with
    | ⟨0, _⟩ => exact lhs_whole_0 _ _
    | ⟨1, _⟩ => exact (lhs_whole_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = wAtRow i k := funext fun a => Fin.ext (by
    match a with
    | ⟨0, _⟩ => exact (rhs_whole_0 _ _).trans hk
    | ⟨1, _⟩ => exact rhs_whole_1 _ _)
  rw [el, er]

/-! ## From the blocks to the array

Point t of the grid holds rows 10000·t … 10000·t + 9999 of x and of the output, and the whole of W1. -/

/-- The block indices of the three windows at each point of the grid: x and the output move down the rows with the
    point, on the columns and for W1 the block index stays 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The block of x at point t is rows 10000·t … of x. -/
theorem x_block_apply (c : Dev nD) (t : Fin cfg0.N) (y : S10000x128.Idx) (r : Cert.ReferenceIdeal.S100000x128.Idx)
    (h0 : (r 0).val = 10000 * t.val + (y 0).val) (h1 : (r 1).val = (y 1).val) :
    (iblk0 V c 0 t : Vec Ideal S10000x128 .f32) y = (V c main_arg0 : FVec Ideal Cert.ReferenceIdeal.S100000x128 .f32) r := by
  obtain ⟨e0, e1, -, -, -, -⟩ := block_indices t
  unfold iblk0
  rw [View.read_apply]
  show V c main_arg0 _ = V c main_arg0 _
  congr 1
  funext a
  apply Fin.ext
  match a with
  | ⟨0, _⟩ => show win0_0.index t (0 : Fin 2) * 10000 + 1 * (y 0).val = (r 0).val; omega
  | ⟨1, _⟩ => show win0_0.index t (1 : Fin 2) * 128 + 1 * (y 1).val = (r 1).val; omega

/-- The block of W1 at any point is W1. -/
theorem w_block_apply (c : Dev nD) (t : Fin cfg0.N) (y : S128x64.Idx) (r : Cert.ReferenceIdeal.S128x64.Idx)
    (h0 : (r 0).val = (y 0).val) (h1 : (r 1).val = (y 1).val) :
    (iblk0 V c 1 t : Vec Ideal S128x64 .f32) y = (V c main_arg2 : FVec Ideal Cert.ReferenceIdeal.S128x64 .f32) r := by
  obtain ⟨-, -, e0, e1, -, -⟩ := block_indices t
  unfold iblk0
  rw [View.read_apply]
  show V c main_arg2 _ = V c main_arg2 _
  congr 1
  funext a
  apply Fin.ext
  match a with
  | ⟨0, _⟩ => show win0_1.index t (0 : Fin 2) * 128 + 1 * (y 0).val = (r 0).val; omega
  | ⟨1, _⟩ => show win0_1.index t (1 : Fin 2) * 64 + 1 * (y 1).val = (r 1).val; omega

/-- The whole product of the arrays as the region finds them. -/
abbrev product (c : Dev nD) : FVec Ideal Cert.ReferenceIdeal.S100000x64 .f32 :=
  Host.dotGeneral (F := Ideal) (φ₁ := .f32) (φ₂ := .f32) Cert.ReferenceIdeal.dot_S100000x128_S128x64_S100000x64_1_0_0_1_n_n none
    (V c main_arg0 : FVec Ideal Cert.ReferenceIdeal.S100000x128 .f32) (V c main_arg2 : FVec Ideal Cert.ReferenceIdeal.S128x64 .f32)

/-- What point t writes back is block t of the whole product: rows 10000·t … of x times W1 are those rows of x·W1. -/
theorem written_back (c : Dev nD) (t : Fin cfg0.N) :
    (dat0 (F := Ideal) V c).flushed 2 t = ((cfg0.win 2).blk t).view.read (Elt Ideal) (product V c) := by
  show (cfg0.win 2).cut (grid0.coords t) ((dat0 (F := Ideal) V c).after 2 t) = _
  rw [after0_2]
  unfold out0_2
  rw [View.canon_unit_zero zero_offsets]
  simp only [View.ld_unit_zero (S := S10000x128) zero_offsets, View.ld_unit_zero (S := S128x64) zero_offsets]
  obtain ⟨-, -, -, -, e0, e1⟩ := block_indices t
  funext j
  show k0_pay1 (F := Ideal) (iblk0 V c 0 t) (iblk0 V c 1 t) j = product V c (((cfg0.win 2).blk t).view.emb j)
  refine (block_product_apply (iblk0 V c 0 t) (iblk0 V c 1 t) j).trans ?_
  refine Eq.trans ?_ (whole_product_apply (V c main_arg0) (V c main_arg2) (((cfg0.win 2).blk t).view.emb j)).symm
  have hr0 : ((((cfg0.win 2).blk t).view.emb j) 0).val = 10000 * t.val + (j 0).val := by
    show win0_2.index t (0 : Fin 2) * 10000 + 1 * (j 0).val = _; omega
  have hr1 : ((((cfg0.win 2).blk t).view.emb j) 1).val = (j 1).val := by
    show win0_2.index t (1 : Fin 2) * 64 + 1 * (j 1).val = _; omega
  refine Finset.sum_congr rfl fun k _ => ?_
  rw [x_block_apply V c t (xAtBlock j k) (xAtRow (((cfg0.win 2).blk t).view.emb j) k) hr0 rfl,
    w_block_apply V c t (wAtBlock j k) (wAtRow (((cfg0.win 2).blk t).view.emb j) k) rfl hr1]

/-- An entry of the output array is in point t's block iff each coordinate is in the block's range on its axis. -/
theorem mem_out_block (t : Fin cfg0.N) (i : Cert.ReferenceIdeal.S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- Every row r of the output is written back: by point r / 10000. -/
theorem rows_covered (i : Cert.ReferenceIdeal.S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e0, e1⟩ := block_indices t
  refine ⟨t, flush0_2 t, ?_⟩
  rw [mem_out_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after all ten points' write-backs is the whole product x·W1 of the arrays as the region finds them. -/
theorem arr_out (c : Dev nD) :
    (dat0 (F := Ideal) V c).arrAt 2 cfg0.N
      = Host.dotGeneral (F := Ideal) (φ₁ := .f32) (φ₂ := .f32) Cert.ReferenceIdeal.dot_S100000x128_S128x64_S100000x64_1_0_0_1_n_n none
          (V c main_arg0 : FVec Ideal Cert.ReferenceIdeal.S100000x128 .f32) (V c main_arg2 : FVec Ideal Cert.ReferenceIdeal.S128x64 .f32) :=
  (dat0 (F := Ideal) V c).arrAt_eq_of_cover 2 (product V c) (fun t _ => written_back V c t) rows_covered

end Cert.KernelIdeal.Region0

end
-- ==== Proof.Region1.lean ====
import proofs.«403851_j43834436223264_4_alg».proof.Proof.Gen.KernelIdeal.Frame
import proofs.«403851_j43834436223264_4_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem
open Cert.KernelIdeal Cert.KernelIdeal.Gen
open Idealize.ShloMosaic.Pipeline (Dat Cfg Window)
open Idealize.ShloMosaic.ValueIdx

/-! ## One entry of the output, on a block of rows and on the whole array

With a the activations, b the bias row and W the weights, the body computes on a block of 10000 rows, and the host
on all 100000 rows at once, the matrix max(a + b, 0) · W: entry (row, column) is the sum over the 64 contracted
positions k of max(a(row, k) + b(0, k), 0) · W(k, column). The bias row is repeated down the rows and the zero is the
same word on both sides. The two contraction records differ only in the number of rows. -/

/-- Zero offsets, in the two ways they are spelt. -/
theorem offsets_zero : (![0, 0] : Fin 2 → Nat) = fun _ => 0 := funext fun a => by fin_cases a <;> rfl

/-- Left factor of the block's product, axis 0: the entry's row. -/
theorem blockL_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Left factor of the block's product, axis 1: the contracted position. -/
theorem blockL_contr (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- Right factor of the block's product, axis 0: the contracted position. -/
theorem blockR_contr (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- Right factor of the block's product, axis 1: the entry's column. -/
theorem blockR_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (p, q) of the block the body stores: row p of the loaded block with the bias row added, clipped below at
    zero, against column q of the weights. -/
theorem block_entry (x0 : FVec Ideal S10000x64 .f32) (x1 : FVec Ideal S1x64 .f32) (x2 : FVec Ideal S64x64 .f32)
    (p : Fin 10000) (q : Fin 64) :
    k1_pay1 (F := Ideal) x0 x1 x2 (ix2 p q)
      = ∑ k : Fin 64, max (x0 (ix2 p k) + x1 (ix2 (0 : Fin 1) k)) (Ideal.ofBits .f32 0x00000000#32) * x2 (ix2 k q) := by
  unfold k1_pay1
  refine (Ideal.matmul_constant_zero_apply dot_S10000x64_S64x64_S10000x64_1_0_0_1_n_n none _ x2 (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact blockL_row _ _
    | ⟨1, _⟩ => exact (blockL_contr _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (blockR_contr _ _).trans hk
    | ⟨1, _⟩ => exact blockR_col _ _)
  rw [el, er, shapeCast_self, shapeCast_self]
  show max (x0 (ix2 p k) + broadcastTo S10000x64 x1 broadcasts_S1x64_S10000x64 (ix2 p k)) (Ideal.ofBits .f32 0x00000000#32) * x2 (ix2 k q) = _
  rw [broadcastTo_1b_ab_apply]

/-- Left factor of the whole product, axis 0: the entry's row. -/
theorem wholeL_row (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
/-- Left factor of the whole product, axis 1: the contracted position. -/
theorem wholeL_contr (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
/-- Right factor of the whole product, axis 0: the contracted position. -/
theorem wholeR_contr (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
/-- Right factor of the whole product, axis 1: the entry's column. -/
theorem wholeR_col (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The whole-array expression: the activations with the bias row added, clipped below at zero, times the weights. -/
abbrev clippedProduct (a : FVec Ideal Cert.ReferenceIdeal.S100000x64 .f32) (b : FVec Ideal Cert.ReferenceIdeal.S1x64 .f32) (W : FVec Ideal Cert.ReferenceIdeal.S64x64 .f32) :
    FVec Ideal Cert.ReferenceIdeal.S100000x64 .f32 :=
  Host.dotGeneral (F := Ideal) (φ₁ := .f32) (φ₂ := .f32) Cert.ReferenceIdeal.dot_S100000x64_S64x64_S100000x64_1_0_0_1_n_n none
    (maximumf (addf a (broadcastInDim Cert.ReferenceIdeal.S100000x64 ![0, 1] Cert.ReferenceIdeal.Facts₀.bcast_S1x64_S100000x64_0_1 b)) (broadcastInDim Cert.ReferenceIdeal.S100000x64 ![] Cert.ReferenceIdeal.Facts₀.bcast_S_S100000x64 (constant (F := Ideal) Cert.ReferenceIdeal.S_ .f32 0x00000000#32)))
    W

/-- Entry (r, q) of it: row r of the activations with the bias row added, clipped below at zero, against column q
    of the weights. -/
theorem whole_entry (a : FVec Ideal Cert.ReferenceIdeal.S100000x64 .f32) (b : FVec Ideal Cert.ReferenceIdeal.S1x64 .f32) (W : FVec Ideal Cert.ReferenceIdeal.S64x64 .f32)
    (r : Fin 100000) (q : Fin 64) :
    clippedProduct a b W (ix2 r q)
      = ∑ k : Fin 64, max (a (ix2 r k) + b (ix2 (0 : Fin 1) k)) (Ideal.ofBits .f32 0x00000000#32) * W (ix2 k q) := by
  unfold clippedProduct
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((contrEquiv1 Cert.ReferenceIdeal.dot_S100000x64_S64x64_S100000x64_1_0_0_1_n_n 64 rfl rfl).symm k) = ix2 r k := funext fun a => Fin.ext (by
    match a with
    | ⟨0, _⟩ => exact wholeL_row _ _
    | ⟨1, _⟩ => exact (wholeL_contr _ _).trans hk)
  have er : Cert.ReferenceIdeal.dot_S100000x64_S64x64_S100000x64_1_0_0_1_n_n.rhsIdx (ix2 r q) ((contrEquiv1 Cert.ReferenceIdeal.dot_S100000x64_S64x64_S100000x64_1_0_0_1_n_n 64 rfl rfl).symm k) = ix2 k q := funext fun a => Fin.ext (by
    match a with
    | ⟨0, _⟩ => exact (wholeR_contr _ _).trans hk
    | ⟨1, _⟩ => exact wholeR_col _ _)
  rw [el, er]
  have eb : broadcastInDim Cert.ReferenceIdeal.S100000x64 ![0, 1] Cert.ReferenceIdeal.Facts₀.bcast_S1x64_S100000x64_0_1 b (ix2 r k) = b (ix2 (0 : Fin 1) k) :=
    broadcastInDim_apply ![0, 1] Cert.ReferenceIdeal.Facts₀.bcast_S1x64_S100000x64_0_1 b (ix2 r k) (ix2 (0 : Fin 1) k) fun ax => by
      match ax with
      | ⟨0, _⟩ => rfl
      | ⟨1, _⟩ => show k.val = if (64 : ℕ) = 1 then 0 else k.val; rw [if_neg (by decide)]
  show max (a (ix2 r k) + broadcastInDim Cert.ReferenceIdeal.S100000x64 ![0, 1] Cert.ReferenceIdeal.Facts₀.bcast_S1x64_S100000x64_0_1 b (ix2 r k)) (Ideal.ofBits .f32 0x00000000#32) * W (ix2 k q) = _
  rw [eb]

/-- A block of rows of the product is the product of that block of rows: if the loaded block x0 is rows 10000·n … of
    the activations a, and x1, x2 are the bias row and the weights entry for entry, then the body's entry j is the
    whole expression's entry i, for i the entry j of the block moved down 10000·n rows. -/
theorem block_entry_eq_whole (x0 : FVec Ideal S10000x64 .f32) (x1 : FVec Ideal S1x64 .f32) (x2 : FVec Ideal S64x64 .f32)
    (a : FVec Ideal Cert.ReferenceIdeal.S100000x64 .f32) (b : FVec Ideal Cert.ReferenceIdeal.S1x64 .f32) (W : FVec Ideal Cert.ReferenceIdeal.S64x64 .f32) (n : ℕ)
    (h0 : ∀ (y : S10000x64.Idx) (r : Cert.ReferenceIdeal.S100000x64.Idx), (r 0).val = 10000 * n + (y 0).val → (r 1).val = (y 1).val → x0 y = a r)
    (h1 : ∀ (y : S1x64.Idx) (r : Cert.ReferenceIdeal.S1x64.Idx), (r 0).val = (y 0).val → (r 1).val = (y 1).val → x1 y = b r)
    (h2 : ∀ (y : S64x64.Idx) (r : Cert.ReferenceIdeal.S64x64.Idx), (r 0).val = (y 0).val → (r 1).val = (y 1).val → x2 y = W r)
    (j : S10000x64.Idx) (i : Cert.ReferenceIdeal.S100000x64.Idx) (hi0 : (i 0).val = 10000 * n + (j 0).val) (hi1 : (i 1).val = (j 1).val) :
    k1_pay1 (F := Ideal) x0 x1 x2 j = clippedProduct a b W i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi1
  rw [block_entry, whole_entry]
  refine Finset.sum_congr rfl fun k _ => ?_
  rw [h0 (ix2 p k) (ix2 r k) hi0 rfl, h1 (ix2 (0 : Fin 1) k) (ix2 (0 : Fin 1) k) rfl rfl, h2 (ix2 k q') (ix2 k q') rfl rfl]

/-! ## From the blocks to the array

Point t of the grid holds rows 10000·t … 10000·t + 9999 of the activations and of the output, and the whole of the
bias row and of the weights. -/

/-- The block indices of the four windows at each point of the grid: the activations and the output move down the
    rows with the point; on the columns, and for the bias row and the weights, the block index stays 0. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The block of activations at point t is rows 10000·t … of the activations. -/
theorem act_block_apply (c : Dev nD) (t : Fin cfg1.N) (y : S10000x64.Idx) (r : Cert.ReferenceIdeal.S100000x64.Idx)
    (h0 : (r 0).val = 10000 * t.val + (y 0).val) (h1 : (r 1).val = (y 1).val) :
    (iblk1 V c 0 t : Vec Ideal S10000x64 .f32) y = (V c main_v46 : FVec Ideal Cert.ReferenceIdeal.S100000x64 .f32) r := by
  obtain ⟨e0, e1, -, -, -, -, -, -⟩ := block_indices t
  unfold iblk1
  rw [View.read_apply]
  show V c main_v46 _ = V c main_v46 _
  congr 1
  funext a
  apply Fin.ext
  match a with
  | ⟨0, _⟩ => show win1_0.index t (0 : Fin 2) * 10000 + 1 * (y 0).val = (r 0).val; omega
  | ⟨1, _⟩ => show win1_0.index t (1 : Fin 2) * 64 + 1 * (y 1).val = (r 1).val; omega

/-- The block of the bias row at any point is the bias row. -/
theorem bias_block_apply (c : Dev nD) (t : Fin cfg1.N) (y : S1x64.Idx) (r : Cert.ReferenceIdeal.S1x64.Idx)
    (h0 : (r 0).val = (y 0).val) (h1 : (r 1).val = (y 1).val) :
    (iblk1 V c 1 t : Vec Ideal S1x64 .f32) y = (V c main_v47 : FVec Ideal Cert.ReferenceIdeal.S1x64 .f32) r := by
  obtain ⟨-, -, e0, e1, -, -, -, -⟩ := block_indices t
  unfold iblk1
  rw [View.read_apply]
  show V c main_v47 _ = V c main_v47 _
  congr 1
  funext a
  apply Fin.ext
  match a with
  | ⟨0, _⟩ => show win1_1.index t (0 : Fin 2) * 1 + 1 * (y 0).val = (r 0).val; omega
  | ⟨1, _⟩ => show win1_1.index t (1 : Fin 2) * 64 + 1 * (y 1).val = (r 1).val; omega

/-- The block of the weights at any point is the weights. -/
theorem weight_block_apply (c : Dev nD) (t : Fin cfg1.N) (y : S64x64.Idx) (r : Cert.ReferenceIdeal.S64x64.Idx)
    (h0 : (r 0).val = (y 0).val) (h1 : (r 1).val = (y 1).val) :
    (iblk1 V c 2 t : Vec Ideal S64x64 .f32) y = (V c main_arg4 : FVec Ideal Cert.ReferenceIdeal.S64x64 .f32) r := by
  obtain ⟨-, -, -, -, e0, e1, -, -⟩ := block_indices t
  unfold iblk1
  rw [View.read_apply]
  show V c main_arg4 _ = V c main_arg4 _
  congr 1
  funext a
  apply Fin.ext
  match a with
  | ⟨0, _⟩ => show win1_2.index t (0 : Fin 2) * 64 + 1 * (y 0).val = (r 0).val; omega
  | ⟨1, _⟩ => show win1_2.index t (1 : Fin 2) * 64 + 1 * (y 1).val = (r 1).val; omega

/-- The whole expression of the arrays as the region finds them. -/
abbrev result (c : Dev nD) : FVec Ideal Cert.ReferenceIdeal.S100000x64 .f32 :=
  clippedProduct (V c main_v46 : FVec Ideal Cert.ReferenceIdeal.S100000x64 .f32) (V c main_v47 : FVec Ideal Cert.ReferenceIdeal.S1x64 .f32) (V c main_arg4 : FVec Ideal Cert.ReferenceIdeal.S64x64 .f32)

/-- What point t writes back is block t of the whole expression: rows 10000·t … of max(a + b, 0) times W are those
    rows of max(a + b, 0) · W. -/
theorem written_back (c : Dev nD) (t : Fin cfg1.N) :
    (dat1 (F := Ideal) V c).flushed 3 t = ((cfg1.win 3).blk t).view.read (Elt Ideal) (result V c) := by
  show (cfg1.win 3).cut (grid1.coords t) ((dat1 (F := Ideal) V c).after 3 t) = _
  rw [after1_3]
  unfold out1_3
  rw [View.canon_unit_zero offsets_zero]
  simp only [View.ld_unit_zero (S := S10000x64) offsets_zero, View.ld_unit_zero (S := S1x64) offsets_zero, View.ld_unit_zero (S := S64x64) offsets_zero]
  obtain ⟨-, -, -, -, -, -, e0, e1⟩ := block_indices t
  funext j
  show k1_pay1 (F := Ideal) (iblk1 V c 0 t) (iblk1 V c 1 t) (iblk1 V c 2 t) j = result V c (((cfg1.win 3).blk t).view.emb j)
  refine block_entry_eq_whole (iblk1 V c 0 t) (iblk1 V c 1 t) (iblk1 V c 2 t) (V c main_v46) (V c main_v47) (V c main_arg4) t.val
    (fun y r => act_block_apply V c t y r) (fun y r => bias_block_apply V c t y r) (fun y r => weight_block_apply V c t y r)
    j (((cfg1.win 3).blk t).view.emb j) ?_ ?_
  · show win1_3.index t (0 : Fin 2) * 10000 + 1 * (j 0).val = _; omega
  · show win1_3.index t (1 : Fin 2) * 64 + 1 * (j 1).val = _; omega

/-- An entry of the output array is in point t's block iff each coordinate is in the block's range on its axis. -/
theorem mem_out_block (t : Fin cfg1.N) (i : Cert.ReferenceIdeal.S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v48).slice (win1_3.rect t)).set ↔ _
  rw [View.set_slice_whole, Rect.mem_set_unit]
  exact Iff.rfl

/-- Every row r of the output is written back: by point r / 10000. -/
theorem rows_covered (i : Cert.ReferenceIdeal.S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, e0, e1⟩ := block_indices t
  refine ⟨t, flush1_3 t, ?_⟩
  rw [mem_out_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array after all ten points' write-backs is max(a + b, 0) · W of the arrays as the region finds them. -/
theorem arr_out (c : Dev nD) :
    (dat1 (F := Ideal) V c).arrAt 3 cfg1.N
      = Host.dotGeneral (F := Ideal) (φ₁ := .f32) (φ₂ := .f32) Cert.ReferenceIdeal.dot_S100000x64_S64x64_S100000x64_1_0_0_1_n_n none
          (maximumf (addf (V c main_v46 : FVec Ideal Cert.ReferenceIdeal.S100000x64 .f32) (broadcastInDim Cert.ReferenceIdeal.S100000x64 ![0, 1] Cert.ReferenceIdeal.Facts₀.bcast_S1x64_S100000x64_0_1 (V c main_v47 : FVec Ideal Cert.ReferenceIdeal.S1x64 .f32))) (broadcastInDim Cert.ReferenceIdeal.S100000x64 ![] Cert.ReferenceIdeal.Facts₀.bcast_S_S100000x64 (constant (F := Ideal) Cert.ReferenceIdeal.S_ .f32 0x00000000#32)))
          (V c main_arg4 : FVec Ideal Cert.ReferenceIdeal.S64x64 .f32) :=
  (dat1 (F := Ideal) V c).arrAt_eq_of_cover 3 (result V c) (fun t _ => written_back V c t) rows_covered

end Cert.KernelIdeal.Region1

end
-- ==== Proof.PadScatter.lean ====
import proofs.«403851_j43834436223264_4_alg».proof.Proof.Gen.KernelIdeal
import proofs.«403851_j43834436223264_4_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.PadScatter

open Idealize.ShloMosaic Idealize.ShloMosaic.ValueIdx
open scoped BigOperators

/-! ## A filtered sum over a larger index set whose extra terms vanish -/

/-- Two families of terms, the second indexed by a larger set into which the first embeds: where the terms and
    their landing places agree along the embedding and the second family vanishes off its image, the sums of the
    terms landing on `i` agree. -/
theorem sum_filter_embed {ι ι' κ : Type} [Fintype ι] [Fintype ι'] (f : ι ↪ ι')
    (r : ι → Option κ) (r' : ι' → Option κ) (u : ι → EReal) (u' : ι' → EReal) (i : κ)
    {dr : DecidablePred fun j => r j = some i} {dr' : DecidablePred fun j' => r' j' = some i}
    (hr : ∀ j, r' (f j) = r j) (hu : ∀ j, u' (f j) = u j) (h0 : ∀ j', j' ∉ Set.range f → u' j' = 0) :
    ∑ j' ∈ Finset.univ.filter (fun j' => r' j' = some i), u' j'
      = ∑ j ∈ Finset.univ.filter (fun j => r j = some i), u j := by
  classical
  rw [← Finset.sum_subset (s₁ := (Finset.univ.filter (fun j => r j = some i)).map f)]
  · rw [Finset.sum_map]; exact Finset.sum_congr rfl fun j _ => hu j
  · intro j' hj'
    obtain ⟨j, hj, rfl⟩ := Finset.mem_map.1 hj'
    rw [Finset.mem_filter] at hj ⊢
    exact ⟨Finset.mem_univ _, by rw [hr]; exact hj.2⟩
  · intro j' hj' hnot
    refine h0 j' ?_
    rintro ⟨j, rfl⟩
    refine hnot (Finset.mem_map.2 ⟨j, ?_, rfl⟩)
    rw [Finset.mem_filter] at hj' ⊢
    exact ⟨Finset.mem_univ _, by rw [← hr]; exact hj'.2⟩

/-! ## Padding at the high end, read at an index -/

/-- Below the operand's length a high-end padding reads the operand … -/
theorem pad_lt {α : Type} {N N' P : Nat} (hp : (⟨1, ![N]⟩ : Shape).Pads ![0] ![P] ![0] ⟨1, ![N']⟩)
    {u : Shape} (v : u.Idx → α) (hu : 0 < u.numel) (x : (⟨1, ![N]⟩ : Shape).Idx → α) (e' : Fin N') (he : e'.val < N) :
    pad ⟨1, ![N']⟩ ![0] ![P] ![0] x v hp hu (ix1 e') = x (ix1 ⟨e'.val, he⟩) := by
  unfold pad
  rw [dif_pos]
  · refine congrArg x (funext fun a => Fin.ext ?_)
    obtain rfl : a = 0 := Subsingleton.elim _ _
    show (e'.val - 0) / (0 + 1) = e'.val
    simp
  · intro a
    obtain rfl : a = 0 := Subsingleton.elim _ _
    refine ⟨Nat.zero_le _, ?_, ?_⟩
    · show (e'.val - 0) % (0 + 1) = 0
      exact Nat.mod_one _
    · show (e'.val - 0) / (0 + 1) < N
      simpa using he

/-- … and from there on the padding value. -/
theorem pad_ge {α : Type} {N N' P : Nat} (hp : (⟨1, ![N]⟩ : Shape).Pads ![0] ![P] ![0] ⟨1, ![N']⟩)
    {u : Shape} (v : u.Idx → α) (hu : 0 < u.numel) (x : (⟨1, ![N]⟩ : Shape).Idx → α) (e' : Fin N') (he : N ≤ e'.val) :
    pad ⟨1, ![N']⟩ ![0] ![P] ![0] x v hp hu (ix1 e') = v (Shape.Idx.first hu) := by
  unfold pad
  rw [dif_neg]
  intro hin
  have := (hin 0).2.2
  change (e'.val - 0) / (0 + 1) < N at this
  simp at this
  omega

/-! ## The row gather and the row scatter-add at any number of rows -/

/-- The gather's dimension numbers: a table `[100000, 64]`, one start row per result row (start indices `[N, 1]`), whole
    rows taken (result `[N, 64]`). -/
abbrev rowGather (N : Nat)
    (wf : GatherDims.WF ⟨2, ![100000, 64]⟩ ⟨2, ![N, 1]⟩ ⟨2, ![N, 64]⟩ [1] [0] [] [0] [] 1 ![1, 64]) :
    GatherDims ⟨2, ![100000, 64]⟩ ⟨2, ![N, 1]⟩ ⟨2, ![N, 64]⟩ where
  offsetDims := [1]
  collapsedSliceDims := [0]
  operandBatchingDims := []
  startIndicesBatchingDims := []
  startIndexMap := [0]
  indexVectorDim := 1
  sliceSizes := ![1, 64]
  wf := wf

/-- A start row: the word read signed and clamped into `[0, 99999]`. -/
def clampRow {w : Nat} (v : BitVec w) : Fin 100000 := ⟨min v.toInt.toNat 99999, by omega⟩

/-- The row gather read at `(e, q)`: the table at the start row `idx[e, 0]`, read signed and clamped into
    `[0, 99999]`, column `q`. -/
theorem rowGather_apply {α : Type} {N w : Nat}
    (wf : GatherDims.WF ⟨2, ![100000, 64]⟩ ⟨2, ![N, 1]⟩ ⟨2, ![N, 64]⟩ [1] [0] [] [0] [] 1 ![1, 64])
    (x : (⟨2, ![100000, 64]⟩ : Shape).Idx → α) (idx : IVec ⟨2, ![N, 1]⟩ w) (e : Fin N) (q : Fin 64) :
    Host.gather (rowGather N wf) x idx (ix2 e q)
      = x (ix2 (clampRow (idx (ix2 e 0))) q) := by
  unfold Host.gather
  refine congrArg x (funext fun a => Fin.ext ?_)
  show (rowGather N wf).start (ix2 e q) idx a + (rowGather N wf).batchCoord (ix2 e q) a
    + (rowGather N wf).offCoord (ix2 e q) a = _
  rw [GatherDims.batchCoord_eq_zero _ _ _ List.not_mem_nil]
  match a with
  | ⟨0, h0⟩ =>
    have hmem : (⟨0, h0⟩ : Fin (Shape.rank ⟨2, ![100000, 64]⟩)) ∈ (rowGather N wf).startIndexMap :=
      List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos hmem]
    have hsi : (rowGather N wf).siIdx (ix2 e q) ⟨List.idxOf (⟨0, h0⟩ : Fin (Shape.rank ⟨2, ![100000, 64]⟩))
        (rowGather N wf).startIndexMap, List.idxOf_lt_length_iff.2 hmem⟩ = ix2 e 0 := by
      funext b; refine Fin.ext ?_
      match b with
      | ⟨0, _⟩ => rfl
      | ⟨1, _⟩ => rfl
    rw [hsi]
    rfl
  | ⟨1, h1⟩ =>
    have hnot : (⟨1, h1⟩ : Fin (Shape.rank ⟨2, ![100000, 64]⟩)) ∉ (rowGather N wf).startIndexMap :=
      fun h => absurd (congrArg Fin.val (List.mem_singleton.mp h)) Nat.one_ne_zero
    have hk : (⟨1, h1⟩ : Fin (Shape.rank ⟨2, ![100000, 64]⟩)) ∈ (rowGather N wf).sKept :=
      (GatherDims.mem_sKept _ _).mpr
        ⟨fun h => absurd (congrArg Fin.val (List.mem_singleton.mp h)) Nat.one_ne_zero, List.not_mem_nil⟩
    unfold GatherDims.start
    rw [dif_neg hnot]
    unfold GatherDims.offCoord
    rw [dif_pos hk]
    simp only [Nat.zero_add]
    rfl

/-- The scatter-add's dimension numbers: each update row `[N, 64]` lands on the table row its scatter index
    `[N, 1]` names. -/
abbrev rowScatter (N : Nat)
    (wf : ScatterDims.WF ⟨2, ![100000, 64]⟩ ⟨2, ![N, 1]⟩ ⟨2, ![N, 64]⟩ [1] [0] [0] 1) :
    ScatterDims ⟨2, ![100000, 64]⟩ ⟨2, ![N, 1]⟩ ⟨2, ![N, 64]⟩ where
  updateWindowDims := [1]
  insertedWindowDims := [0]
  scatterDimsToOperandDims := [0]
  indexVectorDim := 1
  wf := wf

/-- The window of update `(e, q)` starts at row `idx[e, 0]` (read signed), column `0`. -/
theorem rowScatter_start {N w : Nat}
    (wf : ScatterDims.WF ⟨2, ![100000, 64]⟩ ⟨2, ![N, 1]⟩ ⟨2, ![N, 64]⟩ [1] [0] [0] 1)
    (idx : IVec ⟨2, ![N, 1]⟩ w) (e : Fin N) (q : Fin 64) (a : Fin (Shape.rank ⟨2, ![100000, 64]⟩)) :
    (rowScatter N wf).start (ix2 e q) idx a = if a.val = 0 then (idx (ix2 e 0)).toInt else 0 := by
  match a with
  | ⟨0, h0⟩ =>
    have hmem : (⟨0, h0⟩ : Fin (Shape.rank ⟨2, ![100000, 64]⟩)) ∈ (rowScatter N wf).scatterDimsToOperandDims :=
      List.mem_singleton.mpr rfl
    unfold ScatterDims.start
    rw [dif_pos hmem]
    have hsi : (rowScatter N wf).siIdx (ix2 e q) ⟨List.idxOf (⟨0, h0⟩ : Fin (Shape.rank ⟨2, ![100000, 64]⟩))
        (rowScatter N wf).scatterDimsToOperandDims, List.idxOf_lt_length_iff.2 hmem⟩ = ix2 e 0 := by
      funext b; refine Fin.ext ?_
      match b with
      | ⟨0, _⟩ => rfl
      | ⟨1, _⟩ => rfl
    rw [hsi]
    rfl
  | ⟨1, h1⟩ =>
    have hnot : (⟨1, h1⟩ : Fin (Shape.rank ⟨2, ![100000, 64]⟩)) ∉ (rowScatter N wf).scatterDimsToOperandDims :=
      fun h => absurd (congrArg Fin.val (List.mem_singleton.mp h)) Nat.one_ne_zero
    unfold ScatterDims.start
    rw [dif_neg hnot]
    rfl

/-- The window coordinate of update `(e, q)` is `0` on the row axis and `q` on the column axis. -/
theorem rowScatter_window {N : Nat}
    (wf : ScatterDims.WF ⟨2, ![100000, 64]⟩ ⟨2, ![N, 1]⟩ ⟨2, ![N, 64]⟩ [1] [0] [0] 1)
    (e : Fin N) (q : Fin 64) (a : Fin (Shape.rank ⟨2, ![100000, 64]⟩)) :
    (rowScatter N wf).window (ix2 e q) a = if a.val = 0 then 0 else q.val := by
  match a with
  | ⟨0, h0⟩ =>
    have hnot : (⟨0, h0⟩ : Fin (Shape.rank ⟨2, ![100000, 64]⟩)) ∉ (rowScatter N wf).sKept :=
      fun h => (of_decide_eq_true (List.mem_filter.1 h).2) (List.mem_singleton.mpr rfl)
    unfold ScatterDims.window
    rw [dif_neg hnot]
    rfl
  | ⟨1, h1⟩ =>
    have hk : (⟨1, h1⟩ : Fin (Shape.rank ⟨2, ![100000, 64]⟩)) ∈ (rowScatter N wf).sKept :=
      List.mem_filter.2 ⟨List.mem_finRange _, decide_eq_true
        (fun h => absurd (congrArg Fin.val (List.mem_singleton.mp h)) Nat.one_ne_zero)⟩
    unfold ScatterDims.window
    rw [dif_pos hk]
    rfl

/-- Where two scatter-index arrays hold the same word in rows `e'` and `e`, the updates `(e', q)` and `(e, q)` land
    on the same table element (or both outside the table). -/
theorem rowScatter_resultIdx {N N' w : Nat}
    (wf : ScatterDims.WF ⟨2, ![100000, 64]⟩ ⟨2, ![N, 1]⟩ ⟨2, ![N, 64]⟩ [1] [0] [0] 1)
    (wf' : ScatterDims.WF ⟨2, ![100000, 64]⟩ ⟨2, ![N', 1]⟩ ⟨2, ![N', 64]⟩ [1] [0] [0] 1)
    (idx : IVec ⟨2, ![N, 1]⟩ w) (idx' : IVec ⟨2, ![N', 1]⟩ w) (e : Fin N) (e' : Fin N') (q : Fin 64)
    (hidx : idx' (ix2 e' 0) = idx (ix2 e 0)) :
    (rowScatter N' wf').resultIdx? (ix2 e' q) idx' = (rowScatter N wf).resultIdx? (ix2 e q) idx := by
  have hs : ∀ a, (rowScatter N' wf').start (ix2 e' q) idx' a = (rowScatter N wf).start (ix2 e q) idx a := by
    intro a; rw [rowScatter_start, rowScatter_start, hidx]
  have hw : ∀ a, (rowScatter N' wf').window (ix2 e' q) a = (rowScatter N wf).window (ix2 e q) a := by
    intro a; rw [rowScatter_window, rowScatter_window]
  unfold ScatterDims.resultIdx?
  simp only [hs, hw]

/-! ## Broadcasts read at an index -/

/-- Every rank-2 index is `ix2` of two coordinates of literal type. -/
theorem exists_ix2 {n0 n1 : Nat} (j : (⟨2, ![n0, n1]⟩ : Shape).Idx) : ∃ (a : Fin n0) (b : Fin n1), j = ix2 a b :=
  ⟨j 0, j 1, eq_ix2 j⟩

/-- A vector `[N]` made a column `[N, 1]` reads its own entry in each row. -/
theorem bcast_col {α : Type} {N : Nat}
    (hb : (⟨1, ![N]⟩ : Shape).BroadcastsInDim ⟨2, ![N, 1]⟩ ![0])
    (x : (⟨1, ![N]⟩ : Shape).Idx → α) (e : Fin N) (z : Fin 1) :
    broadcastInDim ⟨2, ![N, 1]⟩ ![0] hb x (ix2 e z) = x (ix1 e) := by
  refine broadcastInDim_apply _ hb x _ _ (fun a => ?_)
  obtain rfl : a = 0 := Subsingleton.elim _ _
  show e.val = if N = 1 then 0 else e.val
  have := e.isLt
  split <;> omega

/-- A column `[N, 1]` stretched to `[N, 64]` reads the column's entry of the row. -/
theorem bcast_row {α : Type} {N : Nat}
    (hb : (⟨2, ![N, 1]⟩ : Shape).BroadcastsInDim ⟨2, ![N, 64]⟩ ![0, 1])
    (x : (⟨2, ![N, 1]⟩ : Shape).Idx → α) (e : Fin N) (q : Fin 64) :
    broadcastInDim ⟨2, ![N, 64]⟩ ![0, 1] hb x (ix2 e q) = x (ix2 e 0) := by
  refine broadcastInDim_apply _ hb x _ _ (fun a => ?_)
  match a with
  | ⟨0, _⟩ =>
    show e.val = if N = 1 then 0 else e.val
    have := e.isLt
    split <;> omega
  | ⟨1, _⟩ =>
    show 0 = if 1 = 1 then 0 else q.val
    rfl

/-! ## The scatter-add of a padded update list -/

/-- The update indices `[N, 64]` inside the update indices `[N', 64]` of a longer list. -/
def rowEmb {N N' : Nat} (hN : N ≤ N') : (⟨2, ![N, 64]⟩ : Shape).Idx ↪ (⟨2, ![N', 64]⟩ : Shape).Idx where
  toFun j := ix2 ⟨(j 0).val, lt_of_lt_of_le (idx2_lt0 j) hN⟩ ⟨(j 1).val, idx2_lt1 j⟩
  inj' := by
    intro j k h
    have h0 : (j 0).val = (k 0).val := congrArg (fun t => (t 0).val) h
    have h1 : (j 1).val = (k 1).val := congrArg (fun t => (t 1).val) h
    funext a
    match a with
    | ⟨0, _⟩ => exact Fin.ext h0
    | ⟨1, _⟩ => exact Fin.ext h1

/-- A row scatter-add over `N'` update rows whose first `N` rows are those of a second scatter-add (same scatter
    words, same updates) and whose other rows are zero is that second scatter-add: each table element receives the
    same terms plus zeros. -/
theorem rowScatterAdd_pad {N N' : Nat} (hN : N ≤ N')
    (wf : ScatterDims.WF ⟨2, ![100000, 64]⟩ ⟨2, ![N, 1]⟩ ⟨2, ![N, 64]⟩ [1] [0] [0] 1)
    (wf' : ScatterDims.WF ⟨2, ![100000, 64]⟩ ⟨2, ![N', 1]⟩ ⟨2, ![N', 64]⟩ [1] [0] [0] 1)
    (x : FVec Ideal ⟨2, ![100000, 64]⟩ .f32)
    (idx : IVec ⟨2, ![N, 1]⟩ 32) (idx' : IVec ⟨2, ![N', 1]⟩ 32)
    (upd : FVec Ideal ⟨2, ![N, 64]⟩ .f32) (upd' : FVec Ideal ⟨2, ![N', 64]⟩ .f32)
    (hidx : ∀ e : Fin N, idx' (ix2 (e.castLE hN) 0) = idx (ix2 e 0))
    (hupd : ∀ (e : Fin N) (q : Fin 64), upd' (ix2 (e.castLE hN) q) = upd (ix2 e q))
    (hzero : ∀ (e' : Fin N') (q : Fin 64), N ≤ e'.val → upd' (ix2 e' q) = 0) :
    Host.scatterAdd (F := Ideal) (rowScatter N' wf') x idx' upd'
      = Host.scatterAdd (F := Ideal) (rowScatter N wf) x idx upd := by
  funext i
  unfold Host.scatterAdd
  rw [Ideal.hostScatterAdd_def, Ideal.hostScatterAdd_def]
  unfold Ideal.hostScatterAdd
  refine congrArg (x i + ·) ?_
  refine sum_filter_embed (rowEmb hN) (fun j => (rowScatter N wf).resultIdx? j idx)
    (fun j' => (rowScatter N' wf').resultIdx? j' idx') upd upd' i ?_ ?_ ?_
  · intro j
    obtain ⟨e, q, rfl⟩ := exists_ix2 j
    exact rowScatter_resultIdx wf wf' idx idx' e (e.castLE hN) q (hidx e)
  · intro j
    obtain ⟨e, q, rfl⟩ := exists_ix2 j
    exact hupd e q
  · intro j' hnot
    obtain ⟨e', q, rfl⟩ := exists_ix2 j'
    refine hzero e' q ?_
    by_contra hlt
    exact hnot ⟨ix2 ⟨e'.val, Nat.lt_of_not_le hlt⟩ q, rfl⟩

/-! ## The update rows: gathered feature row times edge weight -/

/-- The wrapped start-row column (`x + 100000` where `x` is negative, else `x`) at a row depends on the source word
    of that row only. -/
theorem wrap_idx_congr {N N' : Nat} (R : IVec ⟨1, ![N]⟩ 32) (R' : IVec ⟨1, ![N']⟩ 32)
    (hz : (⟨0, ![]⟩ : Shape).BroadcastsInDim ⟨1, ![N]⟩ ![])
    (hz' : (⟨0, ![]⟩ : Shape).BroadcastsInDim ⟨1, ![N']⟩ ![])
    (hb : (⟨1, ![N]⟩ : Shape).BroadcastsInDim ⟨2, ![N, 1]⟩ ![0])
    (hb' : (⟨1, ![N']⟩ : Shape).BroadcastsInDim ⟨2, ![N', 1]⟩ ![0])
    (e : Fin N) (e' : Fin N') (hR : R' (ix1 e') = R (ix1 e)) (z : Fin 1) :
    broadcastInDim ⟨2, ![N', 1]⟩ ![0] hb'
        (select (cmpi .slt R' (broadcastInDim ⟨1, ![N']⟩ ![] hz' (constantI ⟨0, ![]⟩ 32 0#32)))
          (addi R' (broadcastInDim ⟨1, ![N']⟩ ![] hz' (constantI ⟨0, ![]⟩ 32 100000#32))) R') (ix2 e' z)
      = broadcastInDim ⟨2, ![N, 1]⟩ ![0] hb
        (select (cmpi .slt R (broadcastInDim ⟨1, ![N]⟩ ![] hz (constantI ⟨0, ![]⟩ 32 0#32)))
          (addi R (broadcastInDim ⟨1, ![N]⟩ ![] hz (constantI ⟨0, ![]⟩ 32 100000#32))) R) (ix2 e z) := by
  rw [bcast_col, bcast_col]
  show Scalar.select (IntOp.cmpi .slt (R' (ix1 e')) 0#32) (IntOp.addi (R' (ix1 e')) 100000#32) (R' (ix1 e'))
    = Scalar.select (IntOp.cmpi .slt (R (ix1 e)) 0#32) (IntOp.addi (R (ix1 e)) 100000#32) (R (ix1 e))
  rw [hR]

/-- An update entry — the gathered table row times the row's weight — depends on the start word and the weight of
    its row only. -/
theorem upd_congr {N N' : Nat}
    (wfg : GatherDims.WF ⟨2, ![100000, 64]⟩ ⟨2, ![N, 1]⟩ ⟨2, ![N, 64]⟩ [1] [0] [] [0] [] 1 ![1, 64])
    (wfg' : GatherDims.WF ⟨2, ![100000, 64]⟩ ⟨2, ![N', 1]⟩ ⟨2, ![N', 64]⟩ [1] [0] [] [0] [] 1 ![1, 64])
    (h : FVec Ideal ⟨2, ![100000, 64]⟩ .f32) (gidx : IVec ⟨2, ![N, 1]⟩ 32) (gidx' : IVec ⟨2, ![N', 1]⟩ 32)
    (wt : FVec Ideal ⟨1, ![N]⟩ .f32) (wt' : FVec Ideal ⟨1, ![N']⟩ .f32)
    (hb1 : (⟨1, ![N]⟩ : Shape).BroadcastsInDim ⟨2, ![N, 1]⟩ ![0])
    (hb1' : (⟨1, ![N']⟩ : Shape).BroadcastsInDim ⟨2, ![N', 1]⟩ ![0])
    (hb2 : (⟨2, ![N, 1]⟩ : Shape).BroadcastsInDim ⟨2, ![N, 64]⟩ ![0, 1])
    (hb2' : (⟨2, ![N', 1]⟩ : Shape).BroadcastsInDim ⟨2, ![N', 64]⟩ ![0, 1])
    (e : Fin N) (e' : Fin N') (q : Fin 64)
    (hg : gidx' (ix2 e' 0) = gidx (ix2 e 0)) (hw : wt' (ix1 e') = wt (ix1 e)) :
    mulf (Host.gather (rowGather N' wfg') h gidx')
        (broadcastInDim ⟨2, ![N', 64]⟩ ![0, 1] hb2' (broadcastInDim ⟨2, ![N', 1]⟩ ![0] hb1' wt')) (ix2 e' q)
      = mulf (Host.gather (rowGather N wfg) h gidx)
        (broadcastInDim ⟨2, ![N, 64]⟩ ![0, 1] hb2 (broadcastInDim ⟨2, ![N, 1]⟩ ![0] hb1 wt)) (ix2 e q) := by
  rw [mulf_apply, mulf_apply, rowGather_apply, rowGather_apply, bcast_row, bcast_row, bcast_col, bcast_col, hg, hw]

/-- An update entry of a row whose weight is zero is zero. -/
theorem upd_zero {N' : Nat}
    (wfg' : GatherDims.WF ⟨2, ![100000, 64]⟩ ⟨2, ![N', 1]⟩ ⟨2, ![N', 64]⟩ [1] [0] [] [0] [] 1 ![1, 64])
    (h : FVec Ideal ⟨2, ![100000, 64]⟩ .f32) (gidx' : IVec ⟨2, ![N', 1]⟩ 32) (wt' : FVec Ideal ⟨1, ![N']⟩ .f32)
    (hb1' : (⟨1, ![N']⟩ : Shape).BroadcastsInDim ⟨2, ![N', 1]⟩ ![0])
    (hb2' : (⟨2, ![N', 1]⟩ : Shape).BroadcastsInDim ⟨2, ![N', 64]⟩ ![0, 1])
    (e' : Fin N') (q : Fin 64) (hw : wt' (ix1 e') = 0) :
    mulf (Host.gather (rowGather N' wfg') h gidx')
        (broadcastInDim ⟨2, ![N', 64]⟩ ![0, 1] hb2' (broadcastInDim ⟨2, ![N', 1]⟩ ![0] hb1' wt')) (ix2 e' q) = 0 := by
  rw [mulf_apply, bcast_row, bcast_col, hw, mul_zero]

/-- Scattering the zero-padded edge list is scattering the edge list. -/
theorem conv_pad (h : FVec Ideal Cert.KernelIdeal.S100000x64 .f32) (r c : IVec Cert.KernelIdeal.S3300000 32) (zr zc : IVec Cert.KernelIdeal.S_ 32)
    (nrm : FVec Ideal Cert.KernelIdeal.S3300000 .f32) :
    Host.scatterAdd (F := Ideal) Cert.KernelIdeal.scatter_S100000x64_S3301376x1_S3301376x64_1_0_0_1
      (broadcastInDim Cert.KernelIdeal.S100000x64 ![] Cert.KernelIdeal.Facts₀.bcast_S_S100000x64 (constant (F := Ideal) Cert.KernelIdeal.S_ .f32 0x00000000#32))
      (broadcastInDim Cert.KernelIdeal.S3301376x1 ![0] Cert.KernelIdeal.Facts₀.bcast_S3301376_S3301376x1_0 (pad Cert.KernelIdeal.S3301376 ![0] ![1376] ![0] c zc Cert.KernelIdeal.Facts₀.pads_S3300000_S3301376_013760 Cert.KernelIdeal.Facts₀.h_S_))
      (mulf (Host.gather Cert.KernelIdeal.gather_S100000x64_S3301376x1_S3301376x64_1_0_n_n_0_1_164 h
               (broadcastInDim Cert.KernelIdeal.S3301376x1 ![0] Cert.KernelIdeal.Facts₀.bcast_S3301376_S3301376x1_0 (select (cmpi .slt (pad Cert.KernelIdeal.S3301376 ![0] ![1376] ![0] r zr Cert.KernelIdeal.Facts₀.pads_S3300000_S3301376_013760 Cert.KernelIdeal.Facts₀.h_S_) (broadcastInDim Cert.KernelIdeal.S3301376 ![] Cert.KernelIdeal.Facts₀.bcast_S_S3301376 (constantI Cert.KernelIdeal.S_ 32 0#32))) (addi (pad Cert.KernelIdeal.S3301376 ![0] ![1376] ![0] r zr Cert.KernelIdeal.Facts₀.pads_S3300000_S3301376_013760 Cert.KernelIdeal.Facts₀.h_S_) (broadcastInDim Cert.KernelIdeal.S3301376 ![] Cert.KernelIdeal.Facts₀.bcast_S_S3301376 (constantI Cert.KernelIdeal.S_ 32 100000#32))) (pad Cert.KernelIdeal.S3301376 ![0] ![1376] ![0] r zr Cert.KernelIdeal.Facts₀.pads_S3300000_S3301376_013760 Cert.KernelIdeal.Facts₀.h_S_))))
            (broadcastInDim Cert.KernelIdeal.S3301376x64 ![0, 1] Cert.KernelIdeal.Facts₀.bcast_S3301376x1_S3301376x64_0_1
               (broadcastInDim Cert.KernelIdeal.S3301376x1 ![0] Cert.KernelIdeal.Facts₀.bcast_S3301376_S3301376x1_0
                  (pad Cert.KernelIdeal.S3301376 ![0] ![1376] ![0] nrm (constant (F := Ideal) Cert.KernelIdeal.S_ .f32 0x00000000#32) Cert.KernelIdeal.Facts₀.pads_S3300000_S3301376_013760 Cert.KernelIdeal.Facts₀.h_S_))))
    = Host.scatterAdd (F := Ideal) Cert.ReferenceIdeal.scatter_S100000x64_S3300000x1_S3300000x64_1_0_0_1
      (broadcastInDim Cert.ReferenceIdeal.S100000x64 ![] Cert.ReferenceIdeal.Facts₀.bcast_S_S100000x64 (constant (F := Ideal) Cert.ReferenceIdeal.S_ .f32 0x00000000#32))
      (broadcastInDim Cert.ReferenceIdeal.S3300000x1 ![0] Cert.ReferenceIdeal.Facts₀.bcast_S3300000_S3300000x1_0 c)
      (mulf (Host.gather Cert.ReferenceIdeal.gather_S100000x64_S3300000x1_S3300000x64_1_0_n_n_0_1_164 h
               (broadcastInDim Cert.ReferenceIdeal.S3300000x1 ![0] Cert.ReferenceIdeal.Facts₀.bcast_S3300000_S3300000x1_0 (select (cmpi .slt r (broadcastInDim Cert.ReferenceIdeal.S3300000 ![] Cert.ReferenceIdeal.Facts₀.bcast_S_S3300000 (constantI Cert.ReferenceIdeal.S_ 32 0#32))) (addi r (broadcastInDim Cert.ReferenceIdeal.S3300000 ![] Cert.ReferenceIdeal.Facts₀.bcast_S_S3300000 (constantI Cert.ReferenceIdeal.S_ 32 100000#32))) r)))
            (broadcastInDim Cert.ReferenceIdeal.S3300000x64 ![0, 1] Cert.ReferenceIdeal.Facts₀.bcast_S3300000x1_S3300000x64_0_1
               (broadcastInDim Cert.ReferenceIdeal.S3300000x1 ![0] Cert.ReferenceIdeal.Facts₀.bcast_S3300000_S3300000x1_0 nrm))) := by
  -- the statement's dimension numbers are the row scatter's and the row gather's at the two lengths
  have hsK : Cert.KernelIdeal.scatter_S100000x64_S3301376x1_S3301376x64_1_0_0_1
      = rowScatter 3301376 Cert.KernelIdeal.scatter_S100000x64_S3301376x1_S3301376x64_1_0_0_1.wf := rfl
  have hsR : Cert.ReferenceIdeal.scatter_S100000x64_S3300000x1_S3300000x64_1_0_0_1
      = rowScatter 3300000 Cert.ReferenceIdeal.scatter_S100000x64_S3300000x1_S3300000x64_1_0_0_1.wf := rfl
  have hgK : Cert.KernelIdeal.gather_S100000x64_S3301376x1_S3301376x64_1_0_n_n_0_1_164
      = rowGather 3301376 Cert.KernelIdeal.gather_S100000x64_S3301376x1_S3301376x64_1_0_n_n_0_1_164.wf := rfl
  have hgR : Cert.ReferenceIdeal.gather_S100000x64_S3300000x1_S3300000x64_1_0_n_n_0_1_164
      = rowGather 3300000 Cert.ReferenceIdeal.gather_S100000x64_S3300000x1_S3300000x64_1_0_n_n_0_1_164.wf := rfl
  rw [hsK, hsR, hgK, hgR]
  have hle : 3300000 ≤ 3301376 := by norm_num
  refine rowScatterAdd_pad (N := 3300000) (N' := 3301376) hle _ _ _ _ _ _ _ ?_ ?_ ?_
  · -- the scatter words of the first 3300000 rows are the unpadded ones
    intro e
    refine (bcast_col _ _ (e.castLE hle) 0).trans ?_
    refine (pad_lt _ _ _ _ (e.castLE hle) e.isLt).trans ?_
    exact (bcast_col _ _ e 0).symm
  · -- so are the update rows: same start word, same weight
    intro e q
    refine upd_congr _ _ h _ _ _ _ _ _ _ _ e (e.castLE hle) q ?_ ?_
    · exact wrap_idx_congr _ _ _ _ _ _ e (e.castLE hle) (pad_lt _ _ _ _ (e.castLE hle) e.isLt) 0
    · exact pad_lt _ _ _ _ (e.castLE hle) e.isLt
  · -- the padded rows carry the weight zero
    intro e' q he
    refine upd_zero _ h _ _ _ _ e' q ?_
    exact (pad_ge _ _ _ _ e' he).trans Ideal.ofBits_zero_f32

end Cert.PadScatter

end
-- ==== Proof.BiasRow.lean ====
/- A bias vector laid out as a one-row matrix: reshaping a length-n vector to shape [1, n] and broadcasting it in
   dimension 1 to shape [1, n] are the same array, entry (0, q) being the vector's entry q. -/
import proofs.«403851_j43834436223264_4_alg».proof.Proof.Gen.KernelIdeal
import proofs.«403851_j43834436223264_4_alg».proof.Proof.Gen.ReferenceIdeal
import Idealize.ShloMosaic.Lib.Pipeline.Value

noncomputable section

namespace Cert.BiasRow

open Idealize.ShloMosaic

variable {F : FTy → Type} [FloatOps F]

/-- The reshape of a vector to one row reads entry (0, q) at the vector's entry q; so does the broadcast along
    dimension 1: the source axis has extent n ≠ 1, so the broadcast reads the result's coordinate on axis 1. -/
theorem row64 (b : FVec F Cert.KernelIdeal.S64 .f32) :
    shapeCast Cert.KernelIdeal.S1x64 b Cert.KernelIdeal.Facts₀.shapeCasts_S64_S1x64
      = broadcastInDim Cert.ReferenceIdeal.S1x64 ![1] Cert.ReferenceIdeal.Facts₀.bcast_S64_S1x64_1 b := by
  funext j
  rw [show shapeCast Cert.KernelIdeal.S1x64 b Cert.KernelIdeal.Facts₀.shapeCasts_S64_S1x64 j = b (fun a => j a.succ) from
    shapeCast_addUnit_apply ![64] b Cert.KernelIdeal.Facts₀.shapeCasts_S64_S1x64 j]
  refine (broadcastInDim_apply (s := Cert.ReferenceIdeal.S64) (t := Cert.ReferenceIdeal.S1x64) ![1] Cert.ReferenceIdeal.Facts₀.bcast_S64_S1x64_1 b j (fun a => j a.succ) (fun a => ?_)).symm
  match a with
  | ⟨0, _⟩ => rfl

theorem row128 (b : FVec F Cert.KernelIdeal.S128 .f32) :
    shapeCast Cert.KernelIdeal.S1x128 b Cert.KernelIdeal.Facts₀.shapeCasts_S128_S1x128
      = broadcastInDim Cert.ReferenceIdeal.S1x128 ![1] Cert.ReferenceIdeal.Facts₀.bcast_S128_S1x128_1 b := by
  funext j
  rw [show shapeCast Cert.KernelIdeal.S1x128 b Cert.KernelIdeal.Facts₀.shapeCasts_S128_S1x128 j = b (fun a => j a.succ) from
    shapeCast_addUnit_apply ![128] b Cert.KernelIdeal.Facts₀.shapeCasts_S128_S1x128 j]
  refine (broadcastInDim_apply (s := Cert.ReferenceIdeal.S128) (t := Cert.ReferenceIdeal.S1x128) ![1] Cert.ReferenceIdeal.Facts₀.bcast_S128_S1x128_1 b j (fun a => j a.succ) (fun a => ?_)).symm
  match a with
  | ⟨0, _⟩ => rfl

end Cert.BiasRow

end
-- ==== Proof.KChain1.lean ====
/- The kernel program's run read back, first half: the buffer contents at the boundaries of the generated fold
   (W8: before the first matrix-product region; W9, W10: around the second; W11: after it), at the buffers the
   later stages read, as the reference's stage values of the launch arguments.
   The edge lists r, c (edges followed by the self-loops) and the symmetric normalisation are computed by the same
   host operations as in the reference; the kernel pads them by 1376 entries (index 0, weight 0). Region 0 leaves
   x·W1; the padded gather / scale / scatter-add is the unpadded one (the padded messages are h(0,·)·0 = 0); region 1
   leaves relu(agg1 + b1)·W2. -/
import proofs.«403851_j43834436223264_4_alg».proof.Proof.KPass
import proofs.«403851_j43834436223264_4_alg».proof.Proof.RefReadP
import proofs.«403851_j43834436223264_4_alg».proof.Proof.Region0
import proofs.«403851_j43834436223264_4_alg».proof.Proof.Region1
import proofs.«403851_j43834436223264_4_alg».proof.Proof.PadScatter
import proofs.«403851_j43834436223264_4_alg».proof.Proof.BiasRow

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

section AnyFloat

variable {F : FTy → Type} [FloatOps F]
variable (m : (ℓ : Loc nD τ sig) → Buf (Elt F) ℓ) (ρ : Dev nD → PrngReg)

/-! ## Before the first region: the edge endpoints and the padded edge lists -/

set_option maxHeartbeats 2000000 in
/-- The edges' sources: row 0 of the edge index. -/
theorem W8_v1 (c : Dev nD) : W8 m ρ c (Proc.devRef .tc main_v1) = Cert.ReferenceIdeal.ReadP.val_main_v1 (F := F) (m ((c.tc : Thread nD τ).loc main_arg1)) := by
  after_results_simp
  rfl

set_option maxHeartbeats 2000000 in
/-- The edges' targets: row 1 of the edge index. -/
theorem W8_v3 (c : Dev nD) : W8 m ρ c (Proc.devRef .tc main_v3) = Cert.ReferenceIdeal.ReadP.val_main_v3 (F := F) (m ((c.tc : Thread nD τ).loc main_arg1)) := by
  after_results_simp
  rfl

set_option maxHeartbeats 4000000 in
/-- The padded source list: the reference's r (sources, then the self-loops) padded by 1376 zeros. -/
theorem W8_v30 (c : Dev nD) : W8 m ρ c (Proc.devRef .tc main_v30)
    = (pad S3301376 ![0] ![1376] ![0] (Cert.ReferenceIdeal.ReadP.val_main_v6 (F := F) (m ((c.tc : Thread nD τ).loc main_arg1))) (constantI S_ 32 0#32) Facts₀.pads_S3300000_S3301376_013760 Facts₀.h_S_) := by
  after_results_simp
  rfl

set_option maxHeartbeats 4000000 in
/-- The padded target list. -/
theorem W8_v31 (c : Dev nD) : W8 m ρ c (Proc.devRef .tc main_v31)
    = (pad S3301376 ![0] ![1376] ![0] (Cert.ReferenceIdeal.ReadP.val_main_v7 (F := F) (m ((c.tc : Thread nD τ).loc main_arg1))) (constantI S_ 32 0#32) Facts₀.pads_S3300000_S3301376_013760 Facts₀.h_S_) := by
  after_results_simp
  rfl

set_option maxHeartbeats 8000000 in
/-- The padded edge weights: the reference's normalisation dinv(r)·dinv(c), padded by zeros. -/
theorem W8_v32 (c : Dev nD) : W8 m ρ c (Proc.devRef .tc main_v32)
    = (pad S3301376 ![0] ![1376] ![0] (Cert.ReferenceIdeal.ReadP.val_main_v30 (F := F) (m ((c.tc : Thread nD τ).loc main_arg1))) (constant (F := F) S_ .f32 0x00000000#32) Facts₀.pads_S3300000_S3301376_013760 Facts₀.h_S_) := by
  after_results_simp
  rfl

end AnyFloat

section AtIdeal

variable (m : (ℓ : Loc nD τ sig) → Buf (Elt Ideal) ℓ) (ρ : Dev nD → PrngReg)

/-! ## Region 0: the first matrix product -/

/-- Region 0 leaves x·W1 in its output array, the reference's first `dot_general`. -/
theorem W9_v33 (c : Dev nD) : W9 m ρ c (Proc.devRef .tc main_v33) = Cert.ReferenceIdeal.ReadP.val_main_v4 (F := Ideal) (m ((c.tc : Thread nD τ).loc main_arg0)) (m ((c.tc : Thread nD τ).loc main_arg2)) := by
  rw [show W9 m ρ c (Proc.devRef .tc main_v33) = (dat0 (V8 m ρ) c).arrAt 2 cfg0.N from W9_arr m ρ c 2,
    Cert.KernelIdeal.Region0.arr_out (V8 m ρ) c,
    show V8 m ρ c main_arg0 = (m ((c.tc : Thread nD τ).loc main_arg0)) from W8_arg0 m ρ c, show V8 m ρ c main_arg2 = (m ((c.tc : Thread nD τ).loc main_arg2)) from W8_arg2 m ρ c]
  rfl

/-! ## The first aggregation, and region 1 -/

set_option maxHeartbeats 4000000 in
/-- The scatter-add of the padded, scaled, gathered rows of x·W1 is the reference's aggregate over the unpadded edge
    list: a padded message is a row times the weight 0. -/
theorem W10_v46 (c : Dev nD) : W10 m ρ c (Proc.devRef .tc main_v46) = Cert.ReferenceIdeal.ReadP.val_main_v43 (F := Ideal) (m ((c.tc : Thread nD τ).loc main_arg0)) (m ((c.tc : Thread nD τ).loc main_arg1)) (m ((c.tc : Thread nD τ).loc main_arg2)) := by
  after_results_simp
  rw [W9_of_ne m ρ c main_v31 (by decide), W9_of_ne m ρ c main_v30 (by decide), W9_of_ne m ρ c main_v32 (by decide),
    W9_v33, W8_v30, W8_v31, W8_v32]
  exact (Cert.PadScatter.conv_pad _ _ _ _ _ _).trans rfl

set_option maxHeartbeats 2000000 in
/-- The first bias as a one-row matrix. -/
theorem W10_v47 (c : Dev nD) : W10 m ρ c (Proc.devRef .tc main_v47) = shapeCast S1x64 (m ((c.tc : Thread nD τ).loc main_arg3)) Facts₀.shapeCasts_S64_S1x64 := by
  after_results_simp
  exact congrArg (fun x => shapeCast S1x64 x Facts₀.shapeCasts_S64_S1x64) (W9_arg3 m ρ c)

/-- Region 1 leaves relu(agg1 + b1)·W2, the reference's second `dot_general`. -/
theorem W11_v48 (c : Dev nD) : W11 m ρ c (Proc.devRef .tc main_v48)
    = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [show W11 m ρ c (Proc.devRef .tc main_v48) = (dat1 (V10 m ρ) c).arrAt 3 cfg1.N from W11_arr m ρ c 3,
    Cert.KernelIdeal.Region1.arr_out (V10 m ρ) c,
    show V10 m ρ c main_v46 = _ from W10_v46 m ρ c, show V10 m ρ c main_v47 = _ from W10_v47 m ρ c,
    show V10 m ρ c main_arg4 = (m ((c.tc : Thread nD τ).loc main_arg4)) from W10_arg4 m ρ c]
  erw [Cert.BiasRow.row64 (F := Ideal) (m ((c.tc : Thread nD τ).loc main_arg3))]
  rfl

end AtIdeal

end Cert.KernelIdeal.Chain

end
-- ==== Proof.Region2.lean ====
import proofs.«403851_j43834436223264_4_alg».proof.Proof.Gen.KernelIdeal.Frame
import proofs.«403851_j43834436223264_4_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## The first output's block: the rows plus the bias row, clamped below at zero -/

/-- The host's whole-array form of the first output: rows plus the broadcast bias row, clamped below at the zero constant. -/
abbrev reluRows (a : FVec Ideal Cert.ReferenceIdeal.S100000x64 .f32) (b : FVec Ideal Cert.ReferenceIdeal.S1x64 .f32) :
    FVec Ideal Cert.ReferenceIdeal.S100000x64 .f32 :=
  maximumf (addf a (broadcastInDim Cert.ReferenceIdeal.S100000x64 ![0, 1] Cert.ReferenceIdeal.Facts₀.bcast_S1x64_S100000x64_0_1 b))
    (broadcastInDim Cert.ReferenceIdeal.S100000x64 ![] Cert.ReferenceIdeal.Facts₀.bcast_S_S100000x64 (constant (F := Ideal) Cert.ReferenceIdeal.S_ .f32 0x00000000#32))

/-- The body's first payload at row p, column q of the block: the loaded row entry plus the bias at column q, clamped at zero. -/
theorem pay1_apply (x0 : Vec Ideal S10000x64 .f32) (x1 : Vec Ideal S1x64 .f32) (p : Fin 10000) (q : Fin 64) :
    k2_pay1 x0 x1 (ValueIdx.ix2 p q)
      = max (x0 (ValueIdx.ix2 p q) + x1 (ValueIdx.ix2 (0 : Fin 1) q)) (Ideal.ofBits .f32 0x00000000#32) := by
  unfold k2_pay1
  rw [ValueIdx.maximumf_apply, ValueIdx.addf_apply, ValueIdx.broadcast_apply, shapeCast_self, shapeCast_self,
    ValueIdx.broadcastTo_1b_ab_apply]
  rfl

/-- A bias row broadcast along the rows of a 64-column array reads, at (r, q), the row's entry at column q. -/
theorem biasRows64_apply (b : FVec Ideal Cert.ReferenceIdeal.S1x64 .f32) (r : Fin 100000) (q : Fin 64) :
    broadcastInDim Cert.ReferenceIdeal.S100000x64 ![0, 1] Cert.ReferenceIdeal.Facts₀.bcast_S1x64_S100000x64_0_1 b (ValueIdx.ix2 r q)
      = b (ValueIdx.ix2 (0 : Fin 1) q) :=
  broadcastInDim_apply _ Cert.ReferenceIdeal.Facts₀.bcast_S1x64_S100000x64_0_1 b (ValueIdx.ix2 r q) (ValueIdx.ix2 (0 : Fin 1) q)
    (fun ax => by match ax with | ⟨0, _⟩ => rfl | ⟨1, _⟩ => rfl)

/-- The zero scalar broadcast over a 64-column array reads zero's word everywhere. -/
theorem zeros64_apply (r : Fin 100000) (q : Fin 64) :
    broadcastInDim Cert.ReferenceIdeal.S100000x64 ![] Cert.ReferenceIdeal.Facts₀.bcast_S_S100000x64
        (constant (F := Ideal) Cert.ReferenceIdeal.S_ .f32 0x00000000#32) (ValueIdx.ix2 r q)
      = Ideal.ofBits .f32 0x00000000#32 :=
  (broadcastInDim_apply _ Cert.ReferenceIdeal.Facts₀.bcast_S_S100000x64 _ (ValueIdx.ix2 r q) ValueIdx.ix0 (fun ax => ax.elim0)).trans
    (ValueIdx.constant_apply _ _)

/-- The host's form at row r, column q of the array: the same expression of the array entries. -/
theorem reluRows_apply (a : FVec Ideal Cert.ReferenceIdeal.S100000x64 .f32) (b : FVec Ideal Cert.ReferenceIdeal.S1x64 .f32)
    (r : Fin 100000) (q : Fin 64) :
    reluRows a b (ValueIdx.ix2 r q)
      = max (a (ValueIdx.ix2 r q) + b (ValueIdx.ix2 (0 : Fin 1) q)) (Ideal.ofBits .f32 0x00000000#32) := by
  unfold reluRows
  rw [ValueIdx.maximumf_apply, ValueIdx.addf_apply, biasRows64_apply, zeros64_apply]

/-! ## From the blocks to the array -/

/-- The zero offsets of a whole-buffer rectangle. -/
theorem zeros2 : (![0, 0] : Fin 2 → Nat) = fun _ => 0 := funext fun a => by fin_cases a <;> rfl

/-- The printed index maps, decided over the grid: a row-tiled window's block index is (t, 0), the bias row's is (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_6.index t (0 : Fin 2) = t.val ∧ win2_6.index t (1 : Fin 2) = 0 :=
  (by decide +kernel : ∀ t : Fin grid2.N, _)

/-- A grid point is one of ten. -/
theorem point_lt (t : Fin cfg2.N) : t.val < 10 := lt_of_lt_of_eq t.isLt N_2

/-- Row p of point t's block is row 10000·t + p of the array. -/
abbrev rowOf (t : Fin cfg2.N) (p : Fin 10000) : Fin 100000 :=
  ⟨t.val * 10000 + p.val, by have := point_lt t; have := p.isLt; omega⟩

/-- The row-tiled input's block at point t reads the array at row 10000·t + p. -/
theorem rows_blk (c : Dev nD) (t : Fin cfg2.N) (p : Fin 10000) (q : Fin 64) :
    iblk2 V c 0 t (ValueIdx.ix2 p q) = V c main_v61 (ValueIdx.ix2 (rowOf t p) q) := by
  obtain ⟨e00, e01, -, -, -, -⟩ := idx_facts t
  show V c main_v61 (((cfg2.win 0).blk t).view.emb (ValueIdx.ix2 p q)) = V c main_v61 (ValueIdx.ix2 (rowOf t p) q)
  refine congrArg (V c main_v61) (funext fun a => Fin.ext ?_)
  match a with
  | ⟨0, _⟩ => show win2_0.index t (0 : Fin 2) * 10000 + 1 * p.val = t.val * 10000 + p.val; omega
  | ⟨1, _⟩ => show win2_0.index t (1 : Fin 2) * 64 + 1 * q.val = q.val; omega

/-- The first bias row's window holds the whole row at every point. -/
theorem bias2_blk (c : Dev nD) (t : Fin cfg2.N) (q : Fin 64) :
    iblk2 V c 1 t (ValueIdx.ix2 (0 : Fin 1) q) = V c main_v62 (ValueIdx.ix2 (0 : Fin 1) q) := by
  obtain ⟨-, -, e10, e11, -, -⟩ := idx_facts t
  show V c main_v62 (((cfg2.win 1).blk t).view.emb (ValueIdx.ix2 (0 : Fin 1) q)) = V c main_v62 (ValueIdx.ix2 (0 : Fin 1) q)
  refine congrArg (V c main_v62) (funext fun a => Fin.ext ?_)
  match a with
  | ⟨0, _⟩ => show win2_1.index t (0 : Fin 2) * 1 + 1 * 0 = 0; omega
  | ⟨1, _⟩ => show win2_1.index t (1 : Fin 2) * 64 + 1 * q.val = q.val; omega

/-- The first output's block at point t sits at rows 10000·t + p of its array. -/
theorem out6_emb (t : Fin cfg2.N) (p : Fin 10000) (q : Fin 64) :
    ((cfg2.win 6).blk t).view.emb (ValueIdx.ix2 p q) = ValueIdx.ix2 (rowOf t p) q := by
  obtain ⟨-, -, -, -, e60, e61⟩ := idx_facts t
  funext a; apply Fin.ext
  match a with
  | ⟨0, _⟩ => show win2_6.index t (0 : Fin 2) * 10000 + 1 * p.val = t.val * 10000 + p.val; omega
  | ⟨1, _⟩ => show win2_6.index t (1 : Fin 2) * 64 + 1 * q.val = q.val; omega

/-- What point t writes back of the first output is block t of the host's form of the entry arrays. -/
theorem flushed6_eq (c : Dev nD) (t : Fin cfg2.N) :
    (dat2 (F := Ideal) V c).flushed 6 t
      = ((cfg2.win 6).blk t).view.read (Elt Ideal) (reluRows (V c main_v61) (V c main_v62)) := by
  show (cfg2.win 6).cut (grid2.coords t) ((dat2 V c).after 6 t) = _
  rw [after2_6]
  unfold out2_6
  rw [View.canon_unit_zero zeros2]
  simp only [View.ld_unit_zero (S := S10000x64) zeros2, View.ld_unit_zero (S := S1x64) zeros2]
  funext j
  obtain ⟨p, q, rfl⟩ : ∃ (p : Fin 10000) (q : Fin 64), j = ValueIdx.ix2 p q := ⟨j 0, j 1, ValueIdx.eq_ix2 j⟩
  show k2_pay1 (iblk2 V c 0 t) (iblk2 V c 1 t) (ValueIdx.ix2 p q)
    = reluRows (V c main_v61) (V c main_v62) (((cfg2.win 6).blk t).view.emb (ValueIdx.ix2 p q))
  refine ((pay1_apply _ _ p q).trans ?_).trans
    ((congrArg (reluRows (V c main_v61) (V c main_v62)) (out6_emb t p q)).trans (reluRows_apply _ _ (rowOf t p) q)).symm
  rw [rows_blk V c t p q, bias2_blk V c t q]

/-- An index of the first output's array is in point t's block iff each coordinate is in the block's range on its axis. -/
theorem mem_blk6 (t : Fin cfg2.N) (i : S100000x64.Idx) :
    i ∈ ((cfg2.win 6).blk t).view.set
      ↔ ∀ a : Fin 2, win2_6.index t a * S10000x64.size a ≤ (i a).val ∧ (i a).val < win2_6.index t a * S10000x64.size a + S10000x64.size a := by
  show i ∈ ((View.whole main_v65_0).slice (win2_6.rect t)).set ↔ _
  rw [View.set_slice_whole, Rect.mem_set_unit]
  exact Iff.rfl

/-- The point covering row r is r / 10000. -/
abbrev pointOf (r : Nat) (hr : r < 100000) : Fin cfg2.N :=
  ⟨r / 10000, lt_of_lt_of_eq (by omega : r / 10000 < 10) N_2.symm⟩

/-- Every index of the first output's array is in some point's block: the ten row blocks tile the 100000 rows. -/
theorem cover6 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  obtain ⟨-, -, -, -, e60, e61⟩ := idx_facts (pointOf (i 0).val hi0)
  have et : (pointOf (i 0).val hi0).val = (i 0).val / 10000 := rfl
  refine ⟨pointOf (i 0).val hi0, flush2_6 _, ?_⟩
  rw [mem_blk6]
  intro a
  match a with
  | ⟨0, _⟩ =>
    show win2_6.index (pointOf (i 0).val hi0) (0 : Fin 2) * 10000 ≤ (i 0).val
      ∧ (i 0).val < win2_6.index (pointOf (i 0).val hi0) (0 : Fin 2) * 10000 + 10000
    omega
  | ⟨1, _⟩ =>
    show win2_6.index (pointOf (i 0).val hi0) (1 : Fin 2) * 64 ≤ (i 1).val
      ∧ (i 1).val < win2_6.index (pointOf (i 0).val hi0) (1 : Fin 2) * 64 + 64
    omega

theorem arr_out6 (c : Dev nD) :
    (dat2 (F := Ideal) V c).arrAt 6 cfg2.N
      = maximumf (addf (V c main_v61 : FVec Ideal Cert.ReferenceIdeal.S100000x64 .f32) (broadcastInDim Cert.ReferenceIdeal.S100000x64 ![0, 1] Cert.ReferenceIdeal.Facts₀.bcast_S1x64_S100000x64_0_1 (V c main_v62 : FVec Ideal Cert.ReferenceIdeal.S1x64 .f32))) (broadcastInDim Cert.ReferenceIdeal.S100000x64 ![] Cert.ReferenceIdeal.Facts₀.bcast_S_S100000x64 (constant (F := Ideal) Cert.ReferenceIdeal.S_ .f32 0x00000000#32)) := by
  exact (dat2 (F := Ideal) V c).arrAt_eq_of_cover 6 (reluRows (V c main_v61) (V c main_v62))
    (fun t _ => flushed6_eq V c t) cover6

end Cert.KernelIdeal.Region2

end
-- ==== Proof.Region2b.lean ====
import proofs.«403851_j43834436223264_4_alg».proof.Proof.Gen.KernelIdeal.Frame
import proofs.«403851_j43834436223264_4_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2b

open Idealize.ShloMosaic Idealize.ShloMosaic.TcCoe Idealize.SL.Sem
open Cert.KernelIdeal Cert.KernelIdeal.Gen
open Idealize.ShloMosaic.Pipeline (Dat Cfg Window)

/-! ## The two-layer function of one row

The body takes a block of 10000 rows of the first array; for each row it adds the first bias row and clamps at zero,
multiplies by the first weights (64 by 64) into a zero accumulator, adds the second bias row and clamps at zero,
multiplies by the second weights (64 by 128) into a zero accumulator and adds the third bias row. The reference does
the same to all 100000 rows at once. Row by row and column by column both are the function `outRow` below. -/

open ValueIdx

/-- The word of zero, which both sides clamp at; it is never evaluated. -/
abbrev zeroWord : Ideal .f32 := Ideal.ofBits .f32 0x00000000#32

/-- A row entry plus the bias at its column, clamped below at zero. -/
def act (row : Fin 64 → Ideal .f32) (b : S1x64.Idx → Ideal .f32) (j : Fin 64) : Ideal .f32 :=
  max (row j + b (ix2 (0 : Fin 1) j)) zeroWord

/-- The hidden layer at column k: the clamped row times column k of the first weights, plus the bias, clamped at zero. -/
def hidden (row : Fin 64 → Ideal .f32) (b : S1x64.Idx → Ideal .f32) (W1 : S64x64.Idx → Ideal .f32) (b1 : S1x64.Idx → Ideal .f32)
    (k : Fin 64) : Ideal .f32 :=
  max ((∑ j : Fin 64, act row b j * W1 (ix2 j k)) + b1 (ix2 (0 : Fin 1) k)) zeroWord

/-- The output at column l: the hidden layer times column l of the second weights, plus the bias. -/
def outRow (row : Fin 64 → Ideal .f32) (b : S1x64.Idx → Ideal .f32) (W1 : S64x64.Idx → Ideal .f32) (b1 : S1x64.Idx → Ideal .f32)
    (W2 : S64x128.Idx → Ideal .f32) (b2 : S1x128.Idx → Ideal .f32) (l : Fin 128) : Ideal .f32 :=
  (∑ k : Fin 64, hidden row b W1 b1 k * W2 (ix2 k l)) + b2 (ix2 (0 : Fin 1) l)

/-- `outRow` reads its arguments only at the entries it names. -/
theorem outRow_congr (row row' : Fin 64 → Ideal .f32) (b b' : S1x64.Idx → Ideal .f32) (W1 W1' : S64x64.Idx → Ideal .f32)
    (b1 b1' : S1x64.Idx → Ideal .f32) (W2 W2' : S64x128.Idx → Ideal .f32) (b2 b2' : S1x128.Idx → Ideal .f32) (l : Fin 128)
    (h0 : ∀ j, row j = row' j) (h1 : ∀ q : Fin 64, b (ix2 (0 : Fin 1) q) = b' (ix2 (0 : Fin 1) q))
    (h2 : ∀ (j k : Fin 64), W1 (ix2 j k) = W1' (ix2 j k)) (h3 : ∀ q : Fin 64, b1 (ix2 (0 : Fin 1) q) = b1' (ix2 (0 : Fin 1) q))
    (h4 : ∀ (k : Fin 64) (l : Fin 128), W2 (ix2 k l) = W2' (ix2 k l)) (h5 : ∀ l : Fin 128, b2 (ix2 (0 : Fin 1) l) = b2' (ix2 (0 : Fin 1) l)) :
    outRow row b W1 b1 W2 b2 l = outRow row' b' W1' b1' W2' b2' l := by
  unfold outRow hidden act
  simp only [h0, h1, h2, h3, h4, h5]

theorem add_congr' {a b c d : EReal} (h1 : a = c) (h2 : b = d) : a + b = c + d := by rw [h1, h2]
theorem mul_congr_left' {a c b : EReal} (h : a = c) : a * b = c * b := by rw [h]
theorem max_congr' {a b c d : EReal} (h1 : a = c) (h2 : b = d) : max a b = max c d := by rw [h1, h2]

/-- Zero offsets, in the two ways they are spelt. -/
theorem zero_offsets : (![0, 0] : Fin 2 → Nat) = fun _ => 0 := funext fun a => by fin_cases a <;> rfl

/-! ## The four products, entry by entry: each is the sum over the 64 contracted positions -/

/-! ### The block's first product: [10000,64] by [64,64] -/

theorem lhs_hid_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_hid_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_hid_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_hid_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block's first product at (p, k): the sum over j of lhs(p, j) · rhs(j, k). -/
theorem hidden_block_apply (lhs : FVec Ideal S10000x64 .f32) (rhs : FVec Ideal S64x64 .f32) (p : Fin 10000) (k : Fin 64) :
    FloatOps.matmul dot_S10000x64_S64x64_S10000x64_1_0_0_1_n_n none lhs rhs (constant (F := Ideal) S10000x64 .f32 0x00000000#32) (ix2 p k)
      = ∑ j : Fin 64, lhs (ix2 p j) * rhs (ix2 j k) := by
  rw [Ideal.matmul_constant_zero_apply, ← Equiv.sum_comp (contrEquiv1 dot_S10000x64_S64x64_S10000x64_1_0_0_1_n_n 64 rfl rfl).symm]
  refine Finset.sum_congr rfl fun j _ => ?_
  have hj := contrEquiv1_symm_val dot_S10000x64_S64x64_S10000x64_1_0_0_1_n_n 64 rfl rfl j
  have el : dot_S10000x64_S64x64_S10000x64_1_0_0_1_n_n.lhsIdx (ix2 p k) ((contrEquiv1 dot_S10000x64_S64x64_S10000x64_1_0_0_1_n_n 64 rfl rfl).symm j) = ix2 p j := funext fun a => Fin.ext (by
    match a with
    | ⟨0, _⟩ => exact lhs_hid_0 _ _
    | ⟨1, _⟩ => exact (lhs_hid_1 _ _).trans hj)
  have er : dot_S10000x64_S64x64_S10000x64_1_0_0_1_n_n.rhsIdx (ix2 p k) ((contrEquiv1 dot_S10000x64_S64x64_S10000x64_1_0_0_1_n_n 64 rfl rfl).symm j) = ix2 j k := funext fun a => Fin.ext (by
    match a with
    | ⟨0, _⟩ => exact (rhs_hid_0 _ _).trans hj
    | ⟨1, _⟩ => exact rhs_hid_1 _ _)
  rw [el, er]

/-! ### The block's second product: [10000,64] by [64,128] -/

theorem lhs_out_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs_out_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem rhs_out_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem rhs_out_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The block's second product at (p, l): the sum over k of lhs(p, k) · rhs(k, l). -/
theorem out_block_apply (lhs : FVec Ideal S10000x64 .f32) (rhs : FVec Ideal S64x128 .f32) (p : Fin 10000) (l : Fin 128) :
    FloatOps.matmul dot_S10000x64_S64x128_S10000x128_1_0_0_1_n_n none lhs rhs (constant (F := Ideal) S10000x128 .f32 0x00000000#32) (ix2 p l)
      = ∑ k : Fin 64, lhs (ix2 p k) * rhs (ix2 k l) := by
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p l) ((contrEquiv1 dot_S10000x64_S64x128_S10000x128_1_0_0_1_n_n 64 rfl rfl).symm k) = ix2 p k := funext fun a => Fin.ext (by
    match a with
    | ⟨0, _⟩ => exact lhs_out_0 _ _
    | ⟨1, _⟩ => exact (lhs_out_1 _ _).trans hk)
  have er : dot_S10000x64_S64x128_S10000x128_1_0_0_1_n_n.rhsIdx (ix2 p l) ((contrEquiv1 dot_S10000x64_S64x128_S10000x128_1_0_0_1_n_n 64 rfl rfl).symm k) = ix2 k l := funext fun a => Fin.ext (by
    match a with
    | ⟨0, _⟩ => exact (rhs_out_0 _ _).trans hk
    | ⟨1, _⟩ => exact rhs_out_1 _ _)
  rw [el, er]

/-! ### The reference's first product: [100000,64] by [64,64] -/

theorem lhs_hidR_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem lhs_hidR_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhs_hidR_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhs_hidR_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The reference's first product at (r, k): the sum over j of lhs(r, j) · rhs(j, k). -/
theorem hidden_whole_apply (lhs : FVec Ideal Cert.ReferenceIdeal.S100000x64 .f32) (rhs : FVec Ideal Cert.ReferenceIdeal.S64x64 .f32) (r : Fin 100000) (k : Fin 64) :
    Host.dotGeneral (F := Ideal) Cert.ReferenceIdeal.dot_S100000x64_S64x64_S100000x64_1_0_0_1_n_n none lhs rhs (ix2 r k)
      = ∑ j : Fin 64, lhs (ix2 r j) * rhs (ix2 j k) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun j _ => ?_
  have hj := contrEquiv1_symm_val Cert.ReferenceIdeal.dot_S100000x64_S64x64_S100000x64_1_0_0_1_n_n 64 rfl rfl j
  have el : Cert.ReferenceIdeal.dot_S100000x64_S64x64_S100000x64_1_0_0_1_n_n.lhsIdx (ix2 r k) ((contrEquiv1 Cert.ReferenceIdeal.dot_S100000x64_S64x64_S100000x64_1_0_0_1_n_n 64 rfl rfl).symm j) = ix2 r j := funext fun a => Fin.ext (by
    match a with
    | ⟨0, _⟩ => exact lhs_hidR_0 _ _
    | ⟨1, _⟩ => exact (lhs_hidR_1 _ _).trans hj)
  have er : Cert.ReferenceIdeal.dot_S100000x64_S64x64_S100000x64_1_0_0_1_n_n.rhsIdx (ix2 r k) ((contrEquiv1 Cert.ReferenceIdeal.dot_S100000x64_S64x64_S100000x64_1_0_0_1_n_n 64 rfl rfl).symm j) = ix2 j k := funext fun a => Fin.ext (by
    match a with
    | ⟨0, _⟩ => exact (rhs_hidR_0 _ _).trans hj
    | ⟨1, _⟩ => exact rhs_hidR_1 _ _)
  rw [el, er]

/-! ### The reference's second product: [100000,64] by [64,128] -/

theorem lhs_outR_0 (i : Cert.ReferenceIdeal.S100000x128.Idx) (q : Cert.ReferenceIdeal.dot_S100000x64_S64x128_S100000x128_1_0_0_1_n_n.contr.Idx) :
    (Cert.ReferenceIdeal.dot_S100000x64_S64x128_S100000x128_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x128_S100000x128_1_0_0_1_n_n.lhsBatch by decide), dif_pos (show (0 : Fin Cert.ReferenceIdeal.S100000x64.rank) ∈ Cert.ReferenceIdeal.dot_S100000x64_S64x128_S100000x128_1_0_0_1_n_n.lhsNonContracting by decide)]
  rfl
theorem lhs_outR_1 (i : Cert.ReferenceIdeal.S100000x128.Idx) (q : Cert.ReferenceIdeal.dot_S100000x64_S64x128_S100000x128_1_0_0_1_n_n.contr.Idx) :
    (Cert.ReferenceIdeal.dot_S100000x64_S64x128_S100000x128_1_0_0_1_n_n.lhsIdx i q 1).val = (q ⟨0, by decide⟩).val :=
  Cert.ReferenceIdeal.dot_S100000x64_S64x128_S100000x128_1_0_0_1_n_n.lhsIdx_val_of_single rfl i q
theorem rhs_outR_0 (i : Cert.ReferenceIdeal.S100000x128.Idx) (q : Cert.ReferenceIdeal.dot_S100000x64_S64x128_S100000x128_1_0_0_1_n_n.contr.Idx) :
    (Cert.ReferenceIdeal.dot_S100000x64_S64x128_S100000x128_1_0_0_1_n_n.rhsIdx i q 0).val = (q ⟨0, by decide⟩).val :=
  Cert.ReferenceIdeal.dot_S100000x64_S64x128_S100000x128_1_0_0_1_n_n.rhsIdx_val_of_single rfl i q
theorem rhs_outR_1 (i : Cert.ReferenceIdeal.S100000x128.Idx) (q : Cert.ReferenceIdeal.dot_S100000x64_S64x128_S100000x128_1_0_0_1_n_n.contr.Idx) :
    (Cert.ReferenceIdeal.dot_S100000x64_S64x128_S100000x128_1_0_0_1_n_n.rhsIdx i q 1).val = (i 1).val := by
  unfold DotDims.rhsIdx
  rw [dif_neg (show ¬(1 : Fin Cert.ReferenceIdeal.S64x128.rank) ∈ Cert.ReferenceIdeal.dot_S100000x64_S64x128_S100000x128_1_0_0_1_n_n.rhsBatch by decide), dif_pos (show (1 : Fin Cert.ReferenceIdeal.S64x128.rank) ∈ Cert.ReferenceIdeal.dot_S100000x64_S64x128_S100000x128_1_0_0_1_n_n.rhsNonContracting by decide)]
  rfl

/-- The reference's second product at (r, l): the sum over k of lhs(r, k) · rhs(k, l). -/
theorem out_whole_apply (lhs : FVec Ideal Cert.ReferenceIdeal.S100000x64 .f32) (rhs : FVec Ideal Cert.ReferenceIdeal.S64x128 .f32) (r : Fin 100000) (l : Fin 128) :
    Host.dotGeneral (F := Ideal) Cert.ReferenceIdeal.dot_S100000x64_S64x128_S100000x128_1_0_0_1_n_n none lhs rhs (ix2 r l)
      = ∑ k : Fin 64, lhs (ix2 r k) * rhs (ix2 k l) := by
  simp only [Host.dotGeneral]
  rw [Ideal.dotGeneral_apply, ← Equiv.sum_comp (contrEquiv1 Cert.ReferenceIdeal.dot_S100000x64_S64x128_S100000x128_1_0_0_1_n_n 64 rfl rfl).symm]
  refine Finset.sum_congr rfl fun k _ => ?_
  have hk := contrEquiv1_symm_val Cert.ReferenceIdeal.dot_S100000x64_S64x128_S100000x128_1_0_0_1_n_n 64 rfl rfl k
  have el : Cert.ReferenceIdeal.dot_S100000x64_S64x128_S100000x128_1_0_0_1_n_n.lhsIdx (ix2 r l) ((contrEquiv1 Cert.ReferenceIdeal.dot_S100000x64_S64x128_S100000x128_1_0_0_1_n_n 64 rfl rfl).symm k) = ix2 r k := funext fun a => Fin.ext (by
    match a with
    | ⟨0, _⟩ => exact lhs_outR_0 _ _
    | ⟨1, _⟩ => exact (lhs_outR_1 _ _).trans hk)
  have er : Cert.ReferenceIdeal.dot_S100000x64_S64x128_S100000x128_1_0_0_1_n_n.rhsIdx (ix2 r l) ((contrEquiv1 Cert.ReferenceIdeal.dot_S100000x64_S64x128_S100000x128_1_0_0_1_n_n 64 rfl rfl).symm k) = ix2 k l := funext fun a => Fin.ext (by
    match a with
    | ⟨0, _⟩ => exact (rhs_outR_0 _ _).trans hk
    | ⟨1, _⟩ => exact rhs_outR_1 _ _)
  rw [el, er]

/-! ## The reference's broadcasts, entry by entry -/

/-- A 64-entry row broadcast down 100000 rows reads, at (r, q), the row at column q. -/
theorem rows64_apply (b : FVec Ideal Cert.ReferenceIdeal.S1x64 .f32) (r : Fin 100000) (q : Fin 64) :
    broadcastInDim Cert.ReferenceIdeal.S100000x64 ![0, 1] Cert.ReferenceIdeal.Facts₀.bcast_S1x64_S100000x64_0_1 b (ix2 r q) = b (ix2 (0 : Fin 1) q) :=
  broadcastInDim_apply _ Cert.ReferenceIdeal.Facts₀.bcast_S1x64_S100000x64_0_1 b (ix2 r q) (ix2 (0 : Fin 1) q)
    (fun ax => by match ax with | ⟨0, _⟩ => rfl | ⟨1, _⟩ => rfl)

/-- A 128-entry row broadcast down 100000 rows reads, at (r, l), the row at column l. -/
theorem rows128_apply (b : FVec Ideal Cert.ReferenceIdeal.S1x128 .f32) (r : Fin 100000) (l : Fin 128) :
    broadcastInDim Cert.ReferenceIdeal.S100000x128 ![0, 1] Cert.ReferenceIdeal.Facts₀.bcast_S1x128_S100000x128_0_1 b (ix2 r l) = b (ix2 (0 : Fin 1) l) :=
  broadcastInDim_apply _ Cert.ReferenceIdeal.Facts₀.bcast_S1x128_S100000x128_0_1 b (ix2 r l) (ix2 (0 : Fin 1) l)
    (fun ax => by match ax with | ⟨0, _⟩ => rfl | ⟨1, _⟩ => rfl)

/-- The zero scalar broadcast over [100000,64] reads zero's word at every entry. -/
theorem zeros_apply (r : Fin 100000) (q : Fin 64) :
    broadcastInDim Cert.ReferenceIdeal.S100000x64 ![] Cert.ReferenceIdeal.Facts₀.bcast_S_S100000x64
        (constant (F := Ideal) Cert.ReferenceIdeal.S_ .f32 0x00000000#32) (ix2 r q) = zeroWord :=
  (broadcastInDim_apply _ Cert.ReferenceIdeal.Facts₀.bcast_S_S100000x64 _ (ix2 r q) ix0 (fun ax => ax.elim0)).trans (constant_apply _ _)

/-! ## The body's payload and the reference's expression are `outRow` of their rows -/

/-- The first payload (the clamped rows) at (p, j) of the block. -/
theorem act_block_apply (v0 : Vec Ideal S10000x64 .f32) (v2 : Vec Ideal S1x64 .f32) (p : Fin 10000) (j : Fin 64) :
    k2_pay1 (F := Ideal) v0 v2 (ix2 p j) = act (fun j => v0 (ix2 p j)) v2 j := by
  unfold k2_pay1 act
  rw [shapeCast_self, shapeCast_self]
  refine (maximumf_apply _ _ _).trans (max_congr' ?_ rfl)
  exact (addf_apply _ _ _).trans (add_congr' rfl (broadcastTo_1b_ab_apply v2 _ p j))

/-- The second payload at (p, l) of the block is `outRow` of row p of the loaded rows and of the five loaded small arrays. -/
theorem block_value_apply (v0 : Vec Ideal S10000x64 .f32) (v2 : Vec Ideal S1x64 .f32) (v9 : Vec Ideal S64x64 .f32) (v11 : Vec Ideal S1x64 .f32)
    (v17 : Vec Ideal S64x128 .f32) (v19 : Vec Ideal S1x128 .f32) (p : Fin 10000) (l : Fin 128) :
    k2_pay2 (F := Ideal) v0 v2 v9 v11 v17 v19 (ix2 p l) = outRow (fun j => v0 (ix2 p j)) v2 v9 v11 v17 v19 l := by
  unfold k2_pay2 outRow
  simp only [matmul]
  rw [shapeCast_self, shapeCast_self]
  refine (addf_apply _ _ _).trans (add_congr' ?_ (broadcastTo_1b_ab_apply v19 _ p l))
  refine (out_block_apply _ v17 p l).trans (Finset.sum_congr rfl fun k _ => mul_congr_left' ?_)
  unfold hidden
  refine (maximumf_apply _ _ _).trans (max_congr' ?_ rfl)
  refine (addf_apply _ _ _).trans (add_congr' ?_ (broadcastTo_1b_ab_apply v11 _ p k))
  refine (hidden_block_apply _ v9 p k).trans (Finset.sum_congr rfl fun j _ => mul_congr_left' ?_)
  exact act_block_apply v0 v2 p j

/-- The reference's whole-array expression of the six arrays. -/
abbrev hostValue (a : FVec Ideal Cert.ReferenceIdeal.S100000x64 .f32) (b : FVec Ideal Cert.ReferenceIdeal.S1x64 .f32)
    (W1 : FVec Ideal Cert.ReferenceIdeal.S64x64 .f32) (b1 : FVec Ideal Cert.ReferenceIdeal.S1x64 .f32)
    (W2 : FVec Ideal Cert.ReferenceIdeal.S64x128 .f32) (b2 : FVec Ideal Cert.ReferenceIdeal.S1x128 .f32) : FVec Ideal Cert.ReferenceIdeal.S100000x128 .f32 :=
  addf (Host.dotGeneral (F := Ideal) (φ₁ := .f32) (φ₂ := .f32) Cert.ReferenceIdeal.dot_S100000x64_S64x128_S100000x128_1_0_0_1_n_n none
          (maximumf (addf (Host.dotGeneral (F := Ideal) (φ₁ := .f32) (φ₂ := .f32) Cert.ReferenceIdeal.dot_S100000x64_S64x64_S100000x64_1_0_0_1_n_n none
                             (maximumf (addf a (broadcastInDim Cert.ReferenceIdeal.S100000x64 ![0, 1] Cert.ReferenceIdeal.Facts₀.bcast_S1x64_S100000x64_0_1 b)) (broadcastInDim Cert.ReferenceIdeal.S100000x64 ![] Cert.ReferenceIdeal.Facts₀.bcast_S_S100000x64 (constant (F := Ideal) Cert.ReferenceIdeal.S_ .f32 0x00000000#32))) W1)
                          (broadcastInDim Cert.ReferenceIdeal.S100000x64 ![0, 1] Cert.ReferenceIdeal.Facts₀.bcast_S1x64_S100000x64_0_1 b1)) (broadcastInDim Cert.ReferenceIdeal.S100000x64 ![] Cert.ReferenceIdeal.Facts₀.bcast_S_S100000x64 (constant (F := Ideal) Cert.ReferenceIdeal.S_ .f32 0x00000000#32)))
          W2)
       (broadcastInDim Cert.ReferenceIdeal.S100000x128 ![0, 1] Cert.ReferenceIdeal.Facts₀.bcast_S1x128_S100000x128_0_1 b2)

/-- The reference's expression at (r, l) is `outRow` of row r of the first array and of the five small arrays. -/
theorem hostValue_apply (a : FVec Ideal Cert.ReferenceIdeal.S100000x64 .f32) (b : FVec Ideal Cert.ReferenceIdeal.S1x64 .f32)
    (W1 : FVec Ideal Cert.ReferenceIdeal.S64x64 .f32) (b1 : FVec Ideal Cert.ReferenceIdeal.S1x64 .f32)
    (W2 : FVec Ideal Cert.ReferenceIdeal.S64x128 .f32) (b2 : FVec Ideal Cert.ReferenceIdeal.S1x128 .f32) (r : Fin 100000) (l : Fin 128) :
    hostValue a b W1 b1 W2 b2 (ix2 r l) = outRow (fun j => a (ix2 r j)) b W1 b1 W2 b2 l := by
  unfold hostValue outRow
  refine (addf_apply _ _ _).trans (add_congr' ?_ (rows128_apply b2 r l))
  refine (out_whole_apply _ W2 r l).trans (Finset.sum_congr rfl fun k _ => mul_congr_left' ?_)
  unfold hidden
  refine (maximumf_apply _ _ _).trans (max_congr' ?_ (zeros_apply r k))
  refine (addf_apply _ _ _).trans (add_congr' ?_ (rows64_apply b1 r k))
  refine (hidden_whole_apply _ W1 r k).trans (Finset.sum_congr rfl fun j _ => mul_congr_left' ?_)
  unfold act
  refine (maximumf_apply _ _ _).trans (max_congr' ?_ (zeros_apply r j))
  exact (addf_apply _ _ _).trans (add_congr' rfl (rows64_apply b r j))

/-! ## From the blocks to the array

Point t of the grid holds rows 10000·t … 10000·t + 9999 of the first array and of the output, and the whole of each
of the five small arrays. -/

/-- The block indices of the windows at each point of the grid: the first array and the output move down the rows
    with the point; on the columns, and for the five small arrays, the block index stays 0. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_7.index t (0 : Fin 2) = t.val ∧ win2_7.index t (1 : Fin 2) = 0 :=
  (by decide +kernel : ∀ t : Fin grid2.N, _)

/-- The grid has ten points. -/
theorem point_lt (t : Fin cfg2.N) : t.val < 10 := lt_of_lt_of_eq t.isLt N_2

/-- Row p of point t's block is row 10000·t + p of the array. -/
abbrev rowAt (t : Fin cfg2.N) (p : Fin 10000) : Fin 100000 :=
  ⟨10000 * t.val + p.val, by have := point_lt t; have := p.isLt; omega⟩

variable (V : (c : Dev nD) → (b : Ref sig .tc) → Buf (Elt Ideal) ((c : Thread nD τ).loc b))

/-- The block of the first array at point t is rows 10000·t … of it. -/
theorem rows_block (c : Dev nD) (t : Fin cfg2.N) (p : Fin 10000) (j : Fin 64) :
    iblk2 V c 0 t (ix2 p j) = V c main_v61 (ix2 (rowAt t p) j) := by
  obtain ⟨e0, e1, -⟩ := block_indices t
  show V c main_v61 (((cfg2.win 0).blk t).view.emb (ix2 p j)) = V c main_v61 (ix2 (rowAt t p) j)
  refine congrArg (V c main_v61) (funext fun a => Fin.ext ?_)
  match a with
  | ⟨0, _⟩ => show win2_0.index t (0 : Fin 2) * 10000 + 1 * p.val = 10000 * t.val + p.val; omega
  | ⟨1, _⟩ => show win2_0.index t (1 : Fin 2) * 64 + 1 * j.val = j.val; omega

/-- The block of the first bias row at any point is the row. -/
theorem bias0_block (c : Dev nD) (t : Fin cfg2.N) (q : Fin 64) :
    iblk2 V c 1 t (ix2 (0 : Fin 1) q) = V c main_v62 (ix2 (0 : Fin 1) q) := by
  obtain ⟨-, -, e0, e1, -⟩ := block_indices t
  show V c main_v62 (((cfg2.win 1).blk t).view.emb (ix2 (0 : Fin 1) q)) = V c main_v62 (ix2 (0 : Fin 1) q)
  refine congrArg (V c main_v62) (funext fun a => Fin.ext ?_)
  match a with
  | ⟨0, _⟩ => show win2_1.index t (0 : Fin 2) * 1 + 1 * 0 = 0; omega
  | ⟨1, _⟩ => show win2_1.index t (1 : Fin 2) * 64 + 1 * q.val = q.val; omega

/-- The block of the first weights at any point is the weights. -/
theorem weights1_block (c : Dev nD) (t : Fin cfg2.N) (j k : Fin 64) :
    iblk2 V c 2 t (ix2 j k) = V c main_arg6 (ix2 j k) := by
  obtain ⟨-, -, -, -, e0, e1, -⟩ := block_indices t
  show V c main_arg6 (((cfg2.win 2).blk t).view.emb (ix2 j k)) = V c main_arg6 (ix2 j k)
  refine congrArg (V c main_arg6) (funext fun a => Fin.ext ?_)
  match a with
  | ⟨0, _⟩ => show win2_2.index t (0 : Fin 2) * 64 + 1 * j.val = j.val; omega
  | ⟨1, _⟩ => show win2_2.index t (1 : Fin 2) * 64 + 1 * k.val = k.val; omega

/-- The block of the second bias row at any point is the row. -/
theorem bias1_block (c : Dev nD) (t : Fin cfg2.N) (q : Fin 64) :
    iblk2 V c 3 t (ix2 (0 : Fin 1) q) = V c main_v63 (ix2 (0 : Fin 1) q) := by
  obtain ⟨-, -, -, -, -, -, e0, e1, -⟩ := block_indices t
  show V c main_v63 (((cfg2.win 3).blk t).view.emb (ix2 (0 : Fin 1) q)) = V c main_v63 (ix2 (0 : Fin 1) q)
  refine congrArg (V c main_v63) (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

/-- The block of the second weights at any point is the weights. -/
theorem weights2_block (c : Dev nD) (t : Fin cfg2.N) (k : Fin 64) (l : Fin 128) :
    iblk2 V c 4 t (ix2 k l) = V c main_arg8 (ix2 k l) := by
  obtain ⟨-, -, -, -, -, -, -, -, e0, e1, -⟩ := block_indices t
  show V c main_arg8 (((cfg2.win 4).blk t).view.emb (ix2 k l)) = V c main_arg8 (ix2 k l)
  refine congrArg (V c main_arg8) (funext fun a => Fin.ext ?_)
  match a with
  | ⟨0, _⟩ => show win2_4.index t (0 : Fin 2) * 64 + 1 * k.val = k.val; omega
  | ⟨1, _⟩ => show win2_4.index t (1 : Fin 2) * 128 + 1 * l.val = l.val; omega

/-- The block of the third bias row at any point is the row. -/
theorem bias2_block (c : Dev nD) (t : Fin cfg2.N) (l : Fin 128) :
    iblk2 V c 5 t (ix2 (0 : Fin 1) l) = V c main_v64 (ix2 (0 : Fin 1) l) := by
  obtain ⟨-, -, -, -, -, -, -, -, -, -, e0, e1, -⟩ := block_indices t
  show V c main_v64 (((cfg2.win 5).blk t).view.emb (ix2 (0 : Fin 1) l)) = V c main_v64 (ix2 (0 : Fin 1) l)
  refine congrArg (V c main_v64) (funext fun a => Fin.ext ?_)
  match a with
  | ⟨0, _⟩ => show win2_5.index t (0 : Fin 2) * 1 + 1 * 0 = 0; omega
  | ⟨1, _⟩ => show win2_5.index t (1 : Fin 2) * 128 + 1 * l.val = l.val; omega

/-- The output's block at point t sits at rows 10000·t … of its array. -/
theorem out_block_at (t : Fin cfg2.N) (p : Fin 10000) (l : Fin 128) :
    ((cfg2.win 7).blk t).view.emb (ix2 p l) = ix2 (rowAt t p) l := by
  obtain ⟨-, -, -, -, -, -, -, -, -, -, -, -, e0, e1⟩ := block_indices t
  funext a; apply Fin.ext
  match a with
  | ⟨0, _⟩ => show win2_7.index t (0 : Fin 2) * 10000 + 1 * p.val = 10000 * t.val + p.val; omega
  | ⟨1, _⟩ => show win2_7.index t (1 : Fin 2) * 128 + 1 * l.val = l.val; omega

/-- The reference's expression of the arrays as the region finds them. -/
abbrev value (c : Dev nD) : FVec Ideal Cert.ReferenceIdeal.S100000x128 .f32 :=
  hostValue (V c main_v61) (V c main_v62) (V c main_arg6) (V c main_v63) (V c main_arg8) (V c main_v64)

/-- What point t writes back of the second output is block t of the reference's expression: the two-layer function
    of rows 10000·t … is those rows of the two-layer function of all rows. -/
theorem written_back (c : Dev nD) (t : Fin cfg2.N) :
    (dat2 (F := Ideal) V c).flushed 7 t = ((cfg2.win 7).blk t).view.read (Elt Ideal) (value V c) := by
  show (cfg2.win 7).cut (grid2.coords t) ((dat2 (F := Ideal) V c).after 7 t) = _
  rw [after2_7]
  unfold out2_7
  rw [View.canon_unit_zero zero_offsets]
  simp only [View.ld_unit_zero (S := S10000x64) zero_offsets, View.ld_unit_zero (S := S1x64) zero_offsets,
    View.ld_unit_zero (S := S64x64) zero_offsets, View.ld_unit_zero (S := S64x128) zero_offsets,
    View.ld_unit_zero (S := S1x128) zero_offsets]
  funext y
  obtain ⟨p, l, rfl⟩ : ∃ (p : Fin 10000) (l : Fin 128), y = ix2 p l := ⟨y 0, y 1, eq_ix2 y⟩
  show k2_pay2 (F := Ideal) (iblk2 V c 0 t) (iblk2 V c 1 t) (iblk2 V c 2 t) (iblk2 V c 3 t) (iblk2 V c 4 t) (iblk2 V c 5 t) (ix2 p l)
    = value V c (((cfg2.win 7).blk t).view.emb (ix2 p l))
  refine ((block_value_apply (iblk2 V c 0 t) (iblk2 V c 1 t) (iblk2 V c 2 t) (iblk2 V c 3 t) (iblk2 V c 4 t) (iblk2 V c 5 t) p l).trans ?_).trans
    ((congrArg (value V c) (out_block_at t p l)).trans
      (hostValue_apply (V c main_v61) (V c main_v62) (V c main_arg6) (V c main_v63) (V c main_arg8) (V c main_v64) (rowAt t p) l)).symm
  exact outRow_congr (fun j => iblk2 V c 0 t (ix2 p j)) (fun j => V c main_v61 (ix2 (rowAt t p) j))
    (iblk2 V c 1 t) (V c main_v62) (iblk2 V c 2 t) (V c main_arg6) (iblk2 V c 3 t) (V c main_v63)
    (iblk2 V c 4 t) (V c main_arg8) (iblk2 V c 5 t) (V c main_v64) l
    (fun j => rows_block V c t p j) (fun q => bias0_block V c t q) (fun j k => weights1_block V c t j k)
    (fun q => bias1_block V c t q) (fun k l => weights2_block V c t k l) (fun l => bias2_block V c t l)

/-- An entry of the output array is in point t's block iff each coordinate is in the block's range on its axis. -/
theorem mem_out_block (t : Fin cfg2.N) (i : Cert.ReferenceIdeal.S100000x128.Idx) :
    i ∈ ((cfg2.win 7).blk t).view.set ↔ ∀ a : Fin 2, win2_7.index t a * S10000x128.size a ≤ (i a).val ∧ (i a).val < win2_7.index t a * S10000x128.size a + S10000x128.size a := by
  show i ∈ ((View.whole main_v65_1).slice (win2_7.rect t)).set ↔ _
  rw [View.set_slice_whole, Rect.mem_set_unit]
  exact Iff.rfl

/-- Every row r of the output is written back: by point r / 10000. -/
theorem rows_covered (i : Cert.ReferenceIdeal.S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, -, -, -, -, -, -, e0, e1⟩ := block_indices t
  refine ⟨t, flush2_7 t, ?_⟩
  rw [mem_out_block]
  intro a
  match a with
  | ⟨0, _⟩ => show win2_7.index t (0 : Fin 2) * 10000 ≤ (i 0).val ∧ (i 0).val < win2_7.index t (0 : Fin 2) * 10000 + 10000; omega
  | ⟨1, _⟩ => show win2_7.index t (1 : Fin 2) * 128 ≤ (i 1).val ∧ (i 1).val < win2_7.index t (1 : Fin 2) * 128 + 128; omega

/-- The second output array after all ten points' write-backs is the reference's two-layer expression of the arrays
    as the region finds them. -/
theorem arr_out7 (c : Dev nD) :
    (dat2 (F := Ideal) V c).arrAt 7 cfg2.N
      = addf (Host.dotGeneral (F := Ideal) (φ₁ := .f32) (φ₂ := .f32) Cert.ReferenceIdeal.dot_S100000x64_S64x128_S100000x128_1_0_0_1_n_n none
                (maximumf (addf (Host.dotGeneral (F := Ideal) (φ₁ := .f32) (φ₂ := .f32) Cert.ReferenceIdeal.dot_S100000x64_S64x64_S100000x64_1_0_0_1_n_n none
                                   (maximumf (addf (V c main_v61 : FVec Ideal Cert.ReferenceIdeal.S100000x64 .f32) (broadcastInDim Cert.ReferenceIdeal.S100000x64 ![0, 1] Cert.ReferenceIdeal.Facts₀.bcast_S1x64_S100000x64_0_1 (V c main_v62 : FVec Ideal Cert.ReferenceIdeal.S1x64 .f32))) (broadcastInDim Cert.ReferenceIdeal.S100000x64 ![] Cert.ReferenceIdeal.Facts₀.bcast_S_S100000x64 (constant (F := Ideal) Cert.ReferenceIdeal.S_ .f32 0x00000000#32))) (V c main_arg6 : FVec Ideal Cert.ReferenceIdeal.S64x64 .f32))
                                (broadcastInDim Cert.ReferenceIdeal.S100000x64 ![0, 1] Cert.ReferenceIdeal.Facts₀.bcast_S1x64_S100000x64_0_1 (V c main_v63 : FVec Ideal Cert.ReferenceIdeal.S1x64 .f32))) (broadcastInDim Cert.ReferenceIdeal.S100000x64 ![] Cert.ReferenceIdeal.Facts₀.bcast_S_S100000x64 (constant (F := Ideal) Cert.ReferenceIdeal.S_ .f32 0x00000000#32)))
                (V c main_arg8 : FVec Ideal Cert.ReferenceIdeal.S64x128 .f32))
             (broadcastInDim Cert.ReferenceIdeal.S100000x128 ![0, 1] Cert.ReferenceIdeal.Facts₀.bcast_S1x128_S100000x128_0_1 (V c main_v64 : FVec Ideal Cert.ReferenceIdeal.S1x128 .f32)) :=
  (dat2 (F := Ideal) V c).arrAt_eq_of_cover 7 (value V c) (fun t _ => written_back V c t) rows_covered

end Cert.KernelIdeal.Region2b

end
-- ==== Proof.EdgeScore.lean ====
import proofs.«403851_j43834436223264_4_alg».proof.Proof.Gen.KernelIdeal
import proofs.«403851_j43834436223264_4_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.EdgeScore

open Idealize.ShloMosaic Idealize.ShloMosaic.ValueIdx

section Row
variable {α : Type}

/-- The dimension numbers of a row gather: an operand `[N, D]`, start indices `[R, 1]` (one start row per result
    row) and a result `[R, D]`; result element `(e, k)` is the operand at row `start(e)`, column `k`. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The table row a start word names: the word read as a signed integer and clamped into the table. -/
def clampRow {w : Nat} (N : Nat) (hN : 0 < N) (z : BitVec w) : Fin N := ⟨min z.toInt.toNat (N - 1), by omega⟩

/-- THE ROW GATHER READ AT `(e, k)`: the operand at the row the start word `idx[e, 0]` names (read signed and
    clamped into `[0, N − 1]`), column `k`. On axis 0 the start is the clamped word and the offset is nil (the axis
    is collapsed); on axis 1 the start is nil (the start index map does not name it) and the offset is `k`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowDims N D R wf) x idx (ix2 e k)
      = x (ix2 (clampRow N hN (idx (ix2 e (0 : Fin 1)))) k) := by
  unfold Host.gather clampRow
  congr 1
  funext a
  refine Fin.ext ?_
  show (rowDims N D R wf).start (ix2 e k) idx a + (rowDims N D R wf).batchCoord (ix2 e k) a
      + (rowDims N D R wf).offCoord (ix2 e k) a = _
  rw [GatherDims.batchCoord_eq_zero _ _ _ List.not_mem_nil, Nat.add_zero]
  have ha : a = (0 : Fin 2) ∨ a = (1 : Fin 2) := by
    rcases a with ⟨_ | _ | n, h⟩
    · exact .inl rfl
    · exact .inr rfl
    · exact absurd h (by show ¬ n + 2 < 2; omega)
  rcases ha with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N D R wf).startIndexMap from List.mem_singleton.mpr rfl)]
    have hsi : (rowDims N D R wf).siIdx (ix2 e k) ⟨List.idxOf (0 : Fin 2) (rowDims N D R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show ¬ (1 : Fin 2) ∈ (rowDims N D R wf).startIndexMap from
      (show ¬ (1 : Fin 2) ∈ [(0 : Fin 2)] from by decide)), Nat.zero_add]
    unfold GatherDims.offCoord
    rw [dif_pos ((GatherDims.mem_sKept _ _).mpr
      ⟨(show ¬ (1 : Fin 2) ∈ [(0 : Fin 2)] from by decide), List.not_mem_nil⟩)]
    rfl

/-- A sum over the minor axis of a two-axis array, read at a row. -/
theorem reduce_row_apply {R D : Nat} {u : Shape} (hR : (⟨2, ![R, D]⟩ : Shape).ReducesTo [1] ⟨1, ![R]⟩)
    (hR' : (⟨2, ![R, D]⟩ : Shape).Reduces [1] ⟨1, ![R]⟩) (hu : 0 < u.numel)
    (x : FVec Ideal ⟨2, ![R, D]⟩ .f32) (init : u.Idx → Ideal .f32) (e : Fin R) :
    Host.reduceAdd (F := Ideal) x init hR hu (ix1 e)
      = init (Shape.Idx.first hu) + ∑ k : Fin D, x (ix2 e k) := by
  simp only [Host.reduceAdd, Ideal.hostReduceAdd_def]
  rw [Ideal.hostReduceAdd_single hR hR']
  refine congrArg (_ + ·) (Finset.sum_congr rfl fun k _ => ?_)
  exact congrArg x (funext fun a => Fin.ext (by match a with | ⟨0, _⟩ => rfl | ⟨1, _⟩ => rfl))

/-- A vector broadcast to a one-column array, read at a row. -/
theorem bcast_col_apply {R w : Nat} (hb : (⟨1, ![R]⟩ : Shape).BroadcastsInDim ⟨2, ![R, 1]⟩ ![0])
    (v : IVec ⟨1, ![R]⟩ w) (e : Fin R) :
    broadcastInDim ⟨2, ![R, 1]⟩ ![0] hb v (ix2 e (0 : Fin 1)) = v (ix1 e) := by
  refine broadcastInDim_apply _ hb v _ (ix1 e) (fun a => ?_)
  match a with
  | ⟨0, _⟩ =>
    show e.val = if R = 1 then 0 else e.val
    have := e.isLt
    split <;> omega

/-- A vector padded at its high end, read below the original length. -/
theorem pad_hi_apply {n m hi : Nat} {u : Shape} (x : (⟨1, ![n]⟩ : Shape).Idx → α) (z : u.Idx → α)
    (hp : (⟨1, ![n]⟩ : Shape).Pads ![0] ![hi] ![0] ⟨1, ![m]⟩) (hu : 0 < u.numel) (e : Fin n) (hlt : e.val < m) :
    pad ⟨1, ![m]⟩ ![0] ![hi] ![0] x z hp hu (ix1 ⟨e.val, hlt⟩) = x (ix1 e) := by
  unfold pad
  split
  · exact congrArg x (funext fun a => Fin.ext (by
      match a with
      | ⟨0, _⟩ => show (e.val - 0) / (0 + 1) = e.val; omega))
  · rename_i hn
    refine absurd (fun a => ?_) hn
    match a with
    | ⟨0, _⟩ =>
      refine ⟨Nat.zero_le _, ?_, ?_⟩
      · show (e.val - 0) % (0 + 1) = 0; omega
      · show (e.val - 0) / (0 + 1) < n; have := e.isLt; omega

/-- The row sums of the products of two gathered rows, read at a row: the initial value plus the sum over the
    columns of the products of the two table rows the clamped start words name. -/
theorem score_apply {N D R : Nat} {u : Shape} (hN : 0 < N)
    (wf : GatherDims.WF ⟨2, ![N, D]⟩ ⟨2, ![R, 1]⟩ ⟨2, ![R, D]⟩ [1] [0] [] [0] [] 1 ![1, D])
    (hb : (⟨1, ![R]⟩ : Shape).BroadcastsInDim ⟨2, ![R, 1]⟩ ![0])
    (hR : (⟨2, ![R, D]⟩ : Shape).ReducesTo [1] ⟨1, ![R]⟩)
    (hR' : (⟨2, ![R, D]⟩ : Shape).Reduces [1] ⟨1, ![R]⟩) (hu : 0 < u.numel)
    (nr : FVec Ideal ⟨2, ![N, D]⟩ .f32) (a b : IVec ⟨1, ![R]⟩ 32) (init : u.Idx → Ideal .f32) (e : Fin R) :
    Host.reduceAdd (F := Ideal)
        (mulf (Host.gather (rowDims N D R wf) nr (broadcastInDim ⟨2, ![R, 1]⟩ ![0] hb a))
              (Host.gather (rowDims N D R wf) nr (broadcastInDim ⟨2, ![R, 1]⟩ ![0] hb b)))
        init hR hu (ix1 e)
      = init (Shape.Idx.first hu)
        + ∑ k : Fin D, nr (ix2 (clampRow N hN (a (ix1 e))) k) * nr (ix2 (clampRow N hN (b (ix1 e))) k) := by
  rw [reduce_row_apply hR hR' hu]
  refine congrArg (_ + ·) (Finset.sum_congr rfl fun k _ => ?_)
  rw [mulf_apply, gather_row_apply hN, gather_row_apply hN, bcast_col_apply hb a e, bcast_col_apply hb b e]

end Row

/-- The wrapped endpoint word read off the padded edge list below the original length is the one read off
    the edge list: the pad leaves those entries as they are, and the wrap acts entry by entry. -/
theorem wrap_pad (v : IVec Cert.KernelIdeal.S3200000 32) (z : IVec Cert.KernelIdeal.S_ 32) (e : Fin 3200000)
    (hlt : e.val < 3203072) :
    (select (cmpi .slt (pad Cert.KernelIdeal.S3203072 ![0] ![3072] ![0] v z Cert.KernelIdeal.Facts₀.pads_S3200000_S3203072_030720 Cert.KernelIdeal.Facts₀.h_S_) (broadcastInDim Cert.KernelIdeal.S3203072 ![] Cert.KernelIdeal.Facts₀.bcast_S_S3203072 (constantI Cert.KernelIdeal.S_ 32 0#32))) (addi (pad Cert.KernelIdeal.S3203072 ![0] ![3072] ![0] v z Cert.KernelIdeal.Facts₀.pads_S3200000_S3203072_030720 Cert.KernelIdeal.Facts₀.h_S_) (broadcastInDim Cert.KernelIdeal.S3203072 ![] Cert.KernelIdeal.Facts₀.bcast_S_S3203072 (constantI Cert.KernelIdeal.S_ 32 100000#32))) (pad Cert.KernelIdeal.S3203072 ![0] ![3072] ![0] v z Cert.KernelIdeal.Facts₀.pads_S3200000_S3203072_030720 Cert.KernelIdeal.Facts₀.h_S_))
        (ix1 ⟨e.val, hlt⟩)
      = (select (cmpi .slt v (broadcastInDim Cert.ReferenceIdeal.S3200000 ![] Cert.ReferenceIdeal.Facts₀.bcast_S_S3200000 (constantI Cert.ReferenceIdeal.S_ 32 0#32))) (addi v (broadcastInDim Cert.ReferenceIdeal.S3200000 ![] Cert.ReferenceIdeal.Facts₀.bcast_S_S3200000 (constantI Cert.ReferenceIdeal.S_ 32 100000#32))) v)
        (ix1 e) := by
  have hp := pad_hi_apply v z Cert.KernelIdeal.Facts₀.pads_S3200000_S3203072_030720 Cert.KernelIdeal.Facts₀.h_S_ e hlt
  show Scalar.select (IntOp.cmpi .slt (pad Cert.KernelIdeal.S3203072 ![0] ![3072] ![0] v z _ _ (ix1 ⟨e.val, hlt⟩)) 0#32)
      (IntOp.addi (pad Cert.KernelIdeal.S3203072 ![0] ![3072] ![0] v z _ _ (ix1 ⟨e.val, hlt⟩)) 100000#32)
      (pad Cert.KernelIdeal.S3203072 ![0] ![3072] ![0] v z _ _ (ix1 ⟨e.val, hlt⟩))
    = Scalar.select (IntOp.cmpi .slt (v (ix1 e)) 0#32) (IntOp.addi (v (ix1 e)) 100000#32) (v (ix1 e))
  rw [hp]

/-- The row sums of the products of the two gathered rows, taken over the zero-padded edge list and cut
    back to the edges, are those taken over the edge list. -/
theorem score_pad (nr : FVec Ideal Cert.KernelIdeal.S100000x64 .f32) (row col : IVec Cert.KernelIdeal.S3200000 32) (zr zc : IVec Cert.KernelIdeal.S_ 32) :
    extractStridedSlice Cert.KernelIdeal.S3200000 ![0]
      (Host.reduceAdd (F := Ideal)
        (mulf (Host.gather Cert.KernelIdeal.gather_S100000x64_S3203072x1_S3203072x64_1_0_n_n_0_1_164 nr
                 (broadcastInDim Cert.KernelIdeal.S3203072x1 ![0] Cert.KernelIdeal.Facts₀.bcast_S3203072_S3203072x1_0 (select (cmpi .slt (pad Cert.KernelIdeal.S3203072 ![0] ![3072] ![0] row zr Cert.KernelIdeal.Facts₀.pads_S3200000_S3203072_030720 Cert.KernelIdeal.Facts₀.h_S_) (broadcastInDim Cert.KernelIdeal.S3203072 ![] Cert.KernelIdeal.Facts₀.bcast_S_S3203072 (constantI Cert.KernelIdeal.S_ 32 0#32))) (addi (pad Cert.KernelIdeal.S3203072 ![0] ![3072] ![0] row zr Cert.KernelIdeal.Facts₀.pads_S3200000_S3203072_030720 Cert.KernelIdeal.Facts₀.h_S_) (broadcastInDim Cert.KernelIdeal.S3203072 ![] Cert.KernelIdeal.Facts₀.bcast_S_S3203072 (constantI Cert.KernelIdeal.S_ 32 100000#32))) (pad Cert.KernelIdeal.S3203072 ![0] ![3072] ![0] row zr Cert.KernelIdeal.Facts₀.pads_S3200000_S3203072_030720 Cert.KernelIdeal.Facts₀.h_S_))))
              (Host.gather Cert.KernelIdeal.gather_S100000x64_S3203072x1_S3203072x64_1_0_n_n_0_1_164 nr
                 (broadcastInDim Cert.KernelIdeal.S3203072x1 ![0] Cert.KernelIdeal.Facts₀.bcast_S3203072_S3203072x1_0 (select (cmpi .slt (pad Cert.KernelIdeal.S3203072 ![0] ![3072] ![0] col zc Cert.KernelIdeal.Facts₀.pads_S3200000_S3203072_030720 Cert.KernelIdeal.Facts₀.h_S_) (broadcastInDim Cert.KernelIdeal.S3203072 ![] Cert.KernelIdeal.Facts₀.bcast_S_S3203072 (constantI Cert.KernelIdeal.S_ 32 0#32))) (addi (pad Cert.KernelIdeal.S3203072 ![0] ![3072] ![0] col zc Cert.KernelIdeal.Facts₀.pads_S3200000_S3203072_030720 Cert.KernelIdeal.Facts₀.h_S_) (broadcastInDim Cert.KernelIdeal.S3203072 ![] Cert.KernelIdeal.Facts₀.bcast_S_S3203072 (constantI Cert.KernelIdeal.S_ 32 100000#32))) (pad Cert.KernelIdeal.S3203072 ![0] ![3072] ![0] col zc Cert.KernelIdeal.Facts₀.pads_S3200000_S3203072_030720 Cert.KernelIdeal.Facts₀.h_S_)))))
        (constant (F := Ideal) Cert.KernelIdeal.S_ .f32 0x00000000#32) Cert.KernelIdeal.Facts₀.reducesTo_S3203072x64_S3203072_d1 Cert.KernelIdeal.Facts₀.h_S_)
      Cert.KernelIdeal.Facts₀.slices_S3203072_S3200000_0
    = Host.reduceAdd (F := Ideal)
        (mulf (Host.gather Cert.ReferenceIdeal.gather_S100000x64_S3200000x1_S3200000x64_1_0_n_n_0_1_164 nr
                 (broadcastInDim Cert.ReferenceIdeal.S3200000x1 ![0] Cert.ReferenceIdeal.Facts₀.bcast_S3200000_S3200000x1_0 (select (cmpi .slt row (broadcastInDim Cert.ReferenceIdeal.S3200000 ![] Cert.ReferenceIdeal.Facts₀.bcast_S_S3200000 (constantI Cert.ReferenceIdeal.S_ 32 0#32))) (addi row (broadcastInDim Cert.ReferenceIdeal.S3200000 ![] Cert.ReferenceIdeal.Facts₀.bcast_S_S3200000 (constantI Cert.ReferenceIdeal.S_ 32 100000#32))) row)))
              (Host.gather Cert.ReferenceIdeal.gather_S100000x64_S3200000x1_S3200000x64_1_0_n_n_0_1_164 nr
                 (broadcastInDim Cert.ReferenceIdeal.S3200000x1 ![0] Cert.ReferenceIdeal.Facts₀.bcast_S3200000_S3200000x1_0 (select (cmpi .slt col (broadcastInDim Cert.ReferenceIdeal.S3200000 ![] Cert.ReferenceIdeal.Facts₀.bcast_S_S3200000 (constantI Cert.ReferenceIdeal.S_ 32 0#32))) (addi col (broadcastInDim Cert.ReferenceIdeal.S3200000 ![] Cert.ReferenceIdeal.Facts₀.bcast_S_S3200000 (constantI Cert.ReferenceIdeal.S_ 32 100000#32))) col))))
        (constant (F := Ideal) Cert.ReferenceIdeal.S_ .f32 0x00000000#32) Cert.ReferenceIdeal.Facts₀.reducesTo_S3200000x64_S3200000_d1 Cert.ReferenceIdeal.Facts₀.h_S_ := by
  -- index by index: fix an edge `e0 < 3200000`; it is also an index of the padded length
  funext e
  obtain ⟨e0, rfl⟩ : ∃ e0 : Fin 3200000, e = ix1 e0 := ⟨e 0, eq_ix1 e⟩
  have hlt : e0.val < 3203072 := by have := e0.isLt; omega
  -- both gathers are row gathers, differing only in the number of result rows
  have hK : Cert.KernelIdeal.gather_S100000x64_S3203072x1_S3203072x64_1_0_n_n_0_1_164
      = rowDims 100000 64 3203072 Cert.KernelIdeal.Facts₀.gather_S100000x64_S3203072x1_S3203072x64_1_0_n_n_0_1_164_wf := rfl
  have hRf : Cert.ReferenceIdeal.gather_S100000x64_S3200000x1_S3200000x64_1_0_n_n_0_1_164
      = rowDims 100000 64 3200000 Cert.ReferenceIdeal.Facts₀.gather_S100000x64_S3200000x1_S3200000x64_1_0_n_n_0_1_164_wf := rfl
  rw [hK, hRf]
  -- the slice from offset 0 reads the padded result at the same position
  refine (extractStridedSlice_apply _ _ _ (ix1 e0) (ix1 ⟨e0.val, hlt⟩) (fun a => ?_)).trans ?_
  · match a with
    | ⟨0, _⟩ => show e0.val = 0 + e0.val; omega
  -- each side at that position: the initial value plus the sum over the 64 columns of the products of the two
  -- table rows named by the wrapped endpoint words; below the original length the padded words are the originals
  refine (score_apply (by decide) _ _ _ (by decide) _ nr _ _ _ ⟨e0.val, hlt⟩).trans ?_
  refine Eq.trans ?_ (score_apply (by decide) _ _ _ (by decide) _ nr _ _ _ e0).symm
  rw [wrap_pad row zr e0 hlt, wrap_pad col zc e0 hlt]

end Cert.EdgeScore

end
-- ==== Proof.KChain2.lean ====
/- The kernel program's run read back, second half: from region 1's exit (W11) to the return (W18).
   The second aggregation is again the reference's over the unpadded edge list (the padded messages vanish); region 2
   leaves relu(agg2 + b2) — the node representation — and the decoder relu(nr·Wd1 + bd1)·Wd2 + bd2; the edge scores are the
   row sums of the products of the two endpoints' rows, taken over the edge list padded by 3072 entries and cut back
   to the 3200000 edges. Each result buffer is the reference's stage value of the launch arguments. -/
import proofs.«403851_j43834436223264_4_alg».proof.Proof.KChain1
import proofs.«403851_j43834436223264_4_alg».proof.Proof.Region2
import proofs.«403851_j43834436223264_4_alg».proof.Proof.Region2b
import proofs.«403851_j43834436223264_4_alg».proof.Proof.EdgeScore

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The second aggregation -/

set_option maxHeartbeats 4000000 in
/-- The scatter-add of the padded, scaled, gathered rows of relu(agg1 + b1)·W2 is the reference's second aggregate. -/
theorem W12_v61 (c : Dev nD) : W12 m ρ c (Proc.devRef .tc main_v61) = Cert.ReferenceIdeal.ReadP.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  after_results_simp
  rw [W11_v31, W11_v30, W11_v32, W11_v48, W8_v30, W8_v31, W8_v32]
  exact (Cert.PadScatter.conv_pad _ _ _ _ _ _).trans rfl

set_option maxHeartbeats 2000000 in
/-- The second bias as a one-row matrix. -/
theorem W12_v62 (c : Dev nD) : W12 m ρ c (Proc.devRef .tc main_v62) = shapeCast S1x64 (m ((c.tc : Thread nD τ).loc main_arg5)) Facts₀.shapeCasts_S64_S1x64 := by
  after_results_simp
  exact congrArg (fun x => shapeCast S1x64 x Facts₀.shapeCasts_S64_S1x64) (W11_arg5 m ρ c)

set_option maxHeartbeats 2000000 in
/-- The decoder's first bias as a one-row matrix. -/
theorem W12_v63 (c : Dev nD) : W12 m ρ c (Proc.devRef .tc main_v63) = shapeCast S1x64 (m ((c.tc : Thread nD τ).loc main_arg7)) Facts₀.shapeCasts_S64_S1x64 := by
  after_results_simp
  exact congrArg (fun x => shapeCast S1x64 x Facts₀.shapeCasts_S64_S1x64) (W11_arg7 m ρ c)

set_option maxHeartbeats 2000000 in
/-- The decoder's second bias as a one-row matrix. -/
theorem W12_v64 (c : Dev nD) : W12 m ρ c (Proc.devRef .tc main_v64) = shapeCast S1x128 (m ((c.tc : Thread nD τ).loc main_arg9)) Facts₀.shapeCasts_S128_S1x128 := by
  after_results_simp
  exact congrArg (fun x => shapeCast S1x128 x Facts₀.shapeCasts_S128_S1x128) (W11_arg9 m ρ c)

/-! ## Region 2: the node representation and the decoder -/

/-- Region 2's first output is relu(agg2 + b2), the reference's node representation. -/
theorem W13_v65_0 (c : Dev nD) : W13 m ρ c (Proc.devRef .tc main_v65_0) = Cert.ReferenceIdeal.ReadP.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [show W13 m ρ c (Proc.devRef .tc main_v65_0) = (dat2 (V12 m ρ) c).arrAt 6 cfg2.N from W13_arr m ρ c 6,
    Cert.KernelIdeal.Region2.arr_out6 (V12 m ρ) c,
    show V12 m ρ c main_v61 = _ from W12_v61 m ρ c, show V12 m ρ c main_v62 = _ from W12_v62 m ρ c]
  erw [Cert.BiasRow.row64 (F := Ideal) (m ((c.tc : Thread nD τ).loc main_arg5))]
  rfl

/-- Region 2's second output is relu(nr·Wd1 + bd1)·Wd2 + bd2, the reference's reconstruction. -/
theorem W13_v65_1 (c : Dev nD) : W13 m ρ c (Proc.devRef .tc main_v65_1) = Cert.ReferenceIdeal.ReadP.val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show W13 m ρ c (Proc.devRef .tc main_v65_1) = (dat2 (V12 m ρ) c).arrAt 7 cfg2.N from W13_arr m ρ c 7,
    Cert.KernelIdeal.Region2b.arr_out7 (V12 m ρ) c,
    show V12 m ρ c main_v61 = _ from W12_v61 m ρ c, show V12 m ρ c main_v62 = _ from W12_v62 m ρ c,
    show V12 m ρ c main_arg6 = (m ((c.tc : Thread nD τ).loc main_arg6)) from W12_arg6 m ρ c, show V12 m ρ c main_v63 = _ from W12_v63 m ρ c,
    show V12 m ρ c main_arg8 = (m ((c.tc : Thread nD τ).loc main_arg8)) from W12_arg8 m ρ c, show V12 m ρ c main_v64 = _ from W12_v64 m ρ c]
  erw [Cert.BiasRow.row64 (F := Ideal) (m ((c.tc : Thread nD τ).loc main_arg5)), Cert.BiasRow.row64 (F := Ideal) (m ((c.tc : Thread nD τ).loc main_arg7)), Cert.BiasRow.row128 (F := Ideal) (m ((c.tc : Thread nD τ).loc main_arg9))]
  rfl

/-! ## The edge scores -/

set_option maxHeartbeats 4000000 in
/-- The row sums over the padded edge list, cut back to the edges, are the reference's edge scores. -/
theorem W18_v84 (c : Dev nD) : W18 m ρ c (Proc.devRef .tc main_v84) = Cert.ReferenceIdeal.ReadP.val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_results_simp
  rw [W13_v65_0, W13_v1, W13_v3, W8_v1, W8_v3]
  exact (Cert.EdgeScore.score_pad _ _ _ _ _).trans rfl

end Cert.KernelIdeal.Chain

end
-- ==== Proof.lean ====
/- The certificate of a two-layer graph convolution with a dense decoder and edge scores.

   Both programs compute, from node features x, an edge index and the weights: the augmented edge lists r, c (the edges
   followed by one self-loop per node), the degree of each node as a scatter-add of ones, the symmetric normalisation
   norm(e) = dinv(r e)·dinv(c e), two graph convolutions agg(h) = scatter-add over c of h(r e)·norm(e), the node
   representation nr = relu(agg(relu(agg(x·W1) + b1)·W2) + b2), the reconstruction relu(nr·Wd1 + bd1)·Wd2 + bd2 and the
   edge scores ∑_q nr(row e, q)·nr(col e, q).

   The kernel program does the three dense stages in tiled matrix-product regions (ten row tiles each) and pads the
   edge lists: the convolutions run over 3301376 = 3300000 + 1376 entries, the padded ones with index 0 and weight 0, and
   the edge scores over 3203072 = 3200000 + 3072 entries, cut back to the 3200000 edges. Over the extended reals the
   padded messages are a row times 0, which is 0, so each padded scatter-add is the unpadded one; a tiled matrix product
   into a zero accumulator is the host's `dot_general`; and the padded row sums restricted to the edges are the unpadded
   ones. So each of the kernel's three results is the reference's stage value of the same arguments.

   The frames of the two kernel programs are the generated ones; the reference's frame and run are its generated run
   (a copy with the float family named at its compares); `preserves` is trivial (the ideal pass rewrote nothing). -/
import proofs.«403851_j43834436223264_4_alg».proof.Proof.Gen.Kernel.Frame
import proofs.«403851_j43834436223264_4_alg».proof.Defs
import proofs.«403851_j43834436223264_4_alg».proof.Proof.Gen.Pre_finite_inputs
import proofs.«403851_j43834436223264_4_alg».proof.Proof.KernelRun
import proofs.«403851_j43834436223264_4_alg».proof.Proof.KChain2

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its run with the results dropped. -/
theorem frame_referenceIdeal : Cert.frame_ReferenceIdeal := fun m ρ _ =>
  (θ_run Cert.ReferenceIdeal.defs _ _).mono (fun _ h c => (h c).2.2.2) (Cert.ReferenceIdeal.ValueP.run (F := Ideal) m ρ)

/-- From memories agreeing on the arguments both programs end with the reconstruction, the edge scores and the node
    representation at the reference's stage values of the kernel's arguments: the kernel by its run read back through the
    fold of boundary contents, the reference by its run and the agreement of the arguments. -/
theorem algebraic : Cert.algebraic_KernelIdeal_ReferenceIdeal := by
  intro m ρ m' ρ' _ hagree
  refine ⟨fun c => Cert.ReferenceIdeal.ReadP.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.ReadP.val_main_v116 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Gen.run_results (F := Ideal) m ρ)
    obtain ⟨h1, h2, h3, hargs⟩ := h c
    exact ⟨h1.trans ((Cert.KernelIdeal.Chain.W18_v65_1 m ρ c).trans (Cert.KernelIdeal.Chain.W13_v65_1 m ρ c)),
      h2.trans (Cert.KernelIdeal.Chain.W18_v84 m ρ c),
      h3.trans ((Cert.KernelIdeal.Chain.W18_v65_0 m ρ c).trans (Cert.KernelIdeal.Chain.W13_v65_0 m ρ c)), hargs⟩
  · refine (θ_run Cert.ReferenceIdeal.defs _ _).mono (fun r h c => ?_) (Cert.ReferenceIdeal.ValueP.run (F := Ideal) m' ρ')
    obtain ⟨h1, h2, h3, hargs⟩ := h c
    obtain ⟨e0, e1, e2, e3, e4, e5, e6, e7, e8, e9⟩ := hagree c
    refine ⟨h1.trans ?_, h2.trans ?_, h3.trans ?_, hargs⟩
    · rw [Cert.ReferenceIdeal.ReadP.val_main_v100_eq, e0, e1, e2, e3, e4, e5, e6, e7, e8, e9]
    · rw [Cert.ReferenceIdeal.ReadP.val_main_v116_eq, e0, e1, e2, e3, e4, e5]
    · rw [Cert.ReferenceIdeal.ReadP.val_main_v91_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
